-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1024x512 : Shape := ⟨2, ![1024, 512]⟩
abbrev S1024x1024 : Shape := ⟨2, ![1024, 1024]⟩
abbrev S_ : Shape := ⟨0, ![]⟩
abbrev S1x4096 : Shape := ⟨2, ![1, 4096]⟩
abbrev S512x4096 : Shape := ⟨2, ![512, 4096]⟩
abbrev S256x4096 : Shape := ⟨2, ![256, 4096]⟩
abbrev S512x256 : Shape := ⟨2, ![512, 256]⟩
abbrev S1x256 : Shape := ⟨2, ![1, 256]⟩

abbrev nBuf : Space → Nat
  | .hbm => 19
  | .vmem => 18
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .bf16⟩
  | .hbm, ⟨5, _⟩ => ⟨S8192x4096, .f32⟩
  | .hbm, ⟨6, _⟩ => ⟨S_, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S1x4096, .f32⟩
  | .hbm, ⟨18, _⟩ => ⟨S4096x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S512x4096, .bf16⟩
  | .local _ .vmem, ⟨8, _⟩ => ⟨S512x4096, .bf16⟩
  | .local _ .vmem, ⟨9, _⟩ => ⟨S256x4096, .f32⟩
  | .local _ .vmem, ⟨10, _⟩ => ⟨S256x4096, .f32⟩
  | .local _ .vmem, ⟨11, _⟩ => ⟨S512x256, .f32⟩
  | .local _ .vmem, ⟨12, _⟩ => ⟨S512x256, .f32⟩
  | .local _ .vmem, ⟨13, _⟩ => ⟨S1x256, .f32⟩
  | .local _ .vmem, ⟨14, _⟩ => ⟨S1x256, .f32⟩
  | .local _ .vmem, ⟨15, _⟩ => ⟨S256x4096, .f32⟩
  | .local _ .vmem, ⟨16, _⟩ => ⟨S256x4096, .f32⟩
  | .local _ .vmem, ⟨17, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reducesTo_S8192x4096_S4096_d0 : S8192x4096.ReducesTo [0] S4096
  h_S_ : 0 < S_.numel
  bcast_S_S4096 : S_.BroadcastsInDim S4096 (![] : Fin 0 → Fin S4096.rank)
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  dot_S1024x512_S1024x512_S1024x1024_1_1_0_0_n_n_wf : DotDims.WF S1024x512 S1024x512 S1024x1024 [1] [1] [0] [0] [] []
  dot_S512x256_S512x4096_S256x4096_0_0_1_1_n_n_wf : DotDims.WF S512x256 S512x4096 S256x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .bf16 = 32 ∨ (Rect.block (s := S8192x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .f32 = 32 ∨ (Rect.block (s := S4096x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S8192x4096.size a
  hwx1_2 : ∀ i : grid1.Coords, EltTy.bits .f32 = 32 ∨ (Rect.block (s := S8192x4096) S512x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x4096.size a
  hwx1_3 : ∀ i : grid1.Coords, EltTy.bits .f32 = 32 ∨ (Rect.block (s := S1x4096) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x4096.size a ≤ S4096x4096.size a
  hwx1_4 : ∀ i : grid1.Coords, EltTy.bits .f32 = 32 ∨ (Rect.block (s := S4096x4096) S256x4096.size (cc1_transform_4 i) (hinb1_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S512x256_S512x4096_S256x4096_0_0_1_1_n_n : DotDims S512x256 S512x4096 S256x4096 where
  lhsContracting := [0]
  rhsContracting := [0]
  lhsNonContracting := [1]
  rhsNonContracting := [1]
  lhsBatch := []
  rhsBatch := []
  wf := dot_S512x256_S512x4096_S256x4096_0_0_1_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S256x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S8192x4096, .f32⟩
  | .hbm, ⟨5, _⟩ => ⟨S_, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  transposes_S4096x4096_S4096x4096_1_0 : S4096x4096.Transposes [1, 0] S4096x4096
  reducesTo_S8192x4096_S4096_d0 : S8192x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S_S4096x4096 : S_.BroadcastsInDim S4096x4096 (![] : Fin 0 → Fin S4096x4096.rank)
  dot_S8192x4096_S4096x4096_S8192x4096_1_0_0_1_n_n_wf : DotDims.WF S8192x4096 S4096x4096 S8192x4096 [1] [0] [0] [1] [] []
  dot_S8192x4096_S8192x4096_S4096x4096_0_0_1_1_n_n_wf : DotDims.WF S8192x4096 S8192x4096 S4096x4096 [0] [0] [1] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S8192x4096_S4096x4096_0_0_1_1_n_n : DotDims S8192x4096 S8192x4096 S4096x4096 where
  lhsContracting := [0]
  rhsContracting := [0]
  lhsNonContracting := [1]
  rhsNonContracting := [1]
  lhsBatch := []
  rhsBatch := []
  wf := dot_S8192x4096_S8192x4096_S4096x4096_0_0_1_1_n_n_wf

class Facts : Prop extends Facts₀ where

variable [Facts]
-- ==== Proof.BitsR0Defs.lean ====
/-
  The proof data of the first kernel region (the blocked product x · wᵀ).
  Its grid is 8 × 4 × 8 = 256 points (row block, column block, contraction block), the contraction block
  running fastest, so point t has contraction block t mod 8.  What the scratch accumulator holds after point t
  is defined by recursion on t: at a point with t mod 8 = 0 it restarts from the zero block, otherwise it adds
  the point's block product to what the point before left.  The output window's staging buffer holds that
  accumulator at the points with t mod 8 = 7, the only points that write a block back.
  The region invariant carries the accumulator's contents from one point to the next.
-/
import proofs.«150280_j81003083202674_1_alg».proof.Proof.Gen.Kernel.Launch
import proofs.«150280_j81003083202674_1_alg».proof.Proof.Gen.Kernel.Skeleton
import proofs.«150280_j81003083202674_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Gen

/-- The kernel's first branch is taken exactly when the contraction coordinate is zero. -/
abbrev cond0_0 (i : grid0.Coords) : Prop := (Scalar.cmpi .ne (Scalar.extui (Scalar.cmpi .eq (BitVec.ofNat 32 (i 2).val) 0#32)) 0#32) = 1#1
/-- Its second branch is taken exactly at the last contraction step. -/
abbrev cond0_1 (i : grid0.Coords) : Prop := k0_cond2 i = 1#1

/-- The offsets of a whole-block access are all zero. -/
theorem zero2 : (![0, 0] : Fin 2 → Nat) = fun _ => 0 := funext fun a => by fin_cases a <;> rfl

/-- One accumulation step: the scratch contents `acc` plus the product of the two input blocks. -/
abbrev step0 (acc : Vec F S1024x1024 .f32) (x0 x1 : Vec F S1024x512 .bf16) : Vec F S1024x1024 .f32 := k0_pay2 acc x0 x1
/-- The first step starts from the zero block. -/
abbrev first0 (x0 x1 : Vec F S1024x512 .bf16) : Vec F S1024x1024 .f32 := k0_pay2 (k0_pay1 (F := F)) x0 x1

theorem N0 : cfg0.N = 256 := N_0

/-- The first branch is taken at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)
/-- The second at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-- The input windows are never idle; the output window is idle, and not written back, off the last contraction step. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

section
-- the buffer contents the region is entered from
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the scratch accumulator holds after point `n`. -/
def acc0 (c : Dev nD) : (n : ℕ) → n < cfg0.N → Vec F S1024x1024 .f32
  | 0, hn => first0 (iblk0 V c 0 ⟨0, hn⟩) (iblk0 V c 1 ⟨0, hn⟩)
  | n + 1, hn =>
    if (n + 1) % 8 = 0 then first0 (iblk0 V c 0 ⟨n + 1, hn⟩) (iblk0 V c 1 ⟨n + 1, hn⟩)
    else step0 (acc0 c n (Nat.lt_of_succ_lt hn)) (iblk0 V c 0 ⟨n + 1, hn⟩) (iblk0 V c 1 ⟨n + 1, hn⟩)

theorem acc0_first (c : Dev nD) (t : Fin cfg0.N) (h : t.val % 8 = 0) :
    acc0 V c t.val t.isLt = first0 (iblk0 V c 0 t) (iblk0 V c 1 t) := by
  obtain ⟨n, hn⟩ := t
  cases n with
  | zero => rfl
  | succ n => exact if_pos h

theorem acc0_step (c : Dev nD) (t : Fin cfg0.N) (h : ¬t.val % 8 = 0) :
    acc0 V c t.val t.isLt = step0 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h
  | succ n => exact if_neg h

/-- The scratch accumulator as a memref. -/
abbrev scM0 : Memref sig .tc .vmem S1024x1024 .f32 := Memref.whole cc0_scratch0

/-- The other scoped buffers no window of this region stages (the second region's), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the accumulator split off. -/
theorem PhiA0_eq (c : Dev nD) :
    (Pipeline.ΦA spec0 c : sProp 𝕄) = iprop(iprop((∃ d, owns (c : Thread nD τ) scM0 fullShare d) ∗ rest0 c) ∗ (∃ r, prngReg c r)) := by
  unfold Pipeline.ΦA rest0; rw [scopedRest0_eq]; simp only [scM0, owns_whole]; try rfl

/-- The region invariant before position `n`: before the first point every scoped buffer at anything; afterwards the
    accumulator at what the point before left. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 c) ∗ (∃ r, prngReg c r))

theorem PhiS0_succ (c : Dev nD) (n : ℕ) (hn : n < cfg0.N) :
    PhiS0 V c (n + 1) hn = iprop(iprop(owns (c : Thread nD τ) scM0 fullShare (acc0 V c n hn) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 c) ∗ (∃ r, prngReg c r)) := by
  cases n with
  | zero => exact absurd rfl hz
  | succ n => rfl

/-- At any position the invariant holds the accumulator at SOME contents. -/
theorem PhiS0_some (c : Dev nD) (n : ℕ) (h : n ≤ cfg0.N) :
    PhiS0 V c n h ⊢ iprop(iprop((∃ d, owns (c : Thread nD τ) scM0 fullShare d) ∗ rest0 c) ∗ (∃ r, prngReg c r)) := by
  cases n with
  | zero => rw [show PhiS0 V c 0 h = Pipeline.ΦA spec0 c from rfl, PhiA0_eq]
  | succ n =>
    rw [PhiS0_succ]
    iintro ⟨⟨HS, HR⟩, Hg⟩
    isplitl [HS HR]
    · isplitl [HS]; · iexists _; iexact HS
      iexact HR
    iexact Hg

/-- The proof data of the region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

end

end Cert.Kernel.Hand

end
-- ==== Proof.BitsR0Body.lean ====
/-
  The three ways one grid point of the first kernel (the blocked product x · wᵀ) can run, as separation-logic
  triples over whole staging buffers.  The grid is (row block, column block, contraction block); the scratch
  buffer accumulates the partial products over the contraction blocks of one (row block, column block) pair:
    * at the first contraction block the scratch is zeroed and then receives  0 + x_blk · w_blkᵀ;
    * at a middle block it receives  scratch + x_blk · w_blkᵀ;
    * at the last block it does the same and the sum is copied into the output block.
  In every case the inputs are handed back unchanged.
-/
import proofs.«150280_j81003083202674_1_alg».proof.Proof.BitsR0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Gen

set_option maxHeartbeats 1000000 in
/-- First contraction block: whatever the scratch held, it ends at `0 + x_blk · w_blkᵀ`; the output block is untouched. -/
theorem run0_A (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1024x1024 .f32) (harg6 : arg6.IsWhole)
    (hc0 : cond0_0 i) (hc1 : ¬cond0_1 i)
    (x0 : Vec F S1024x512 .bf16) (x1 : Vec F S1024x512 .bf16) (xi : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare xi ∗ (∃ d, owns (c : Thread nD τ) arg6 fullShare d)
        ∗ (iprop(owns (c : Thread nD τ) arg3 fullShare x0 ∗ owns (c : Thread nD τ) arg4 fullShare x1 ∗ owns (c : Thread nD τ) arg5 fullShare xi ∗ owns (c : Thread nD τ) arg6 fullShare (first0 x0 x1)) -∗ K ⟨⟩))
      ⊢ wp frame (wpE (defs₀ (F := F)) Variants.none c none) E (cc0_kernel i arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons_self .., View.mem_set_unit_zero zero2 inb_S1024x1024_S1024x1024_0_0 y⟩), View.canon_cons_unit_zero zero2]
  simp only [View.readAt_eq_ld, View.readCov_unit_zero (S := S1024x1024) _ zero2 inb_S1024x1024_S1024x1024_0_0, harg6.read_unread, harg3.read_unread, harg4.read_unread, View.ld_unit_zero (S := S1024x1024) zero2, View.ld_unit_zero (S := S1024x512) zero2]

set_option maxHeartbeats 1000000 in
/-- A middle contraction block: the scratch goes from `xs` to `xs + x_blk · w_blkᵀ`; the output block is untouched. -/
theorem run0_B (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1024x1024 .f32) (harg6 : arg6.IsWhole)
    (hc0 : ¬cond0_0 i) (hc1 : ¬cond0_1 i)
    (x0 : Vec F S1024x512 .bf16) (x1 : Vec F S1024x512 .bf16) (xi : Vec F S1024x1024 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare xi ∗ owns (c : Thread nD τ) arg6 fullShare xs
        ∗ (iprop(owns (c : Thread nD τ) arg3 fullShare x0 ∗ owns (c : Thread nD τ) arg4 fullShare x1 ∗ owns (c : Thread nD τ) arg5 fullShare xi ∗ owns (c : Thread nD τ) arg6 fullShare (step0 xs x0 x1)) -∗ K ⟨⟩))
      ⊢ wp frame (wpE (defs₀ (F := F)) Variants.none c none) E (cc0_kernel i arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons_self .., View.mem_set_unit_zero zero2 inb_S1024x1024_S1024x1024_0_0 y⟩), View.canon_cons_unit_zero zero2]
  simp only [View.readAt_eq_ld, View.readCov_unit_zero (S := S1024x1024) _ zero2 inb_S1024x1024_S1024x1024_0_0, harg6.read_unread, harg3.read_unread, harg4.read_unread, View.ld_unit_zero (S := S1024x1024) zero2, View.ld_unit_zero (S := S1024x512) zero2]

set_option maxHeartbeats 1000000 in
/-- The last contraction block: the scratch goes from `xs` to `xs + x_blk · w_blkᵀ`, and the output block receives that sum. -/
theorem run0_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1024x1024 .f32) (harg6 : arg6.IsWhole)
    (hc0 : ¬cond0_0 i) (hc1 : cond0_1 i)
    (x0 : Vec F S1024x512 .bf16) (x1 : Vec F S1024x512 .bf16) (xs : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (step0 xs x0 x1) ∗ owns (c : Thread nD τ) arg6 fullShare (step0 xs x0 x1)) -∗ K ⟨⟩))
      ⊢ wp frame (wpE (defs₀ (F := F)) Variants.none c none) E (cc0_kernel i arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (fun y => ⟨_, List.mem_cons_self .., View.mem_set_unit_zero zero2 inb_S1024x1024_S1024x1024_0_0 y⟩), View.canon_cons_unit_zero zero2]
    simp only [View.readAt_eq_ld, View.readCov_unit_zero (S := S1024x1024) _ zero2 inb_S1024x1024_S1024x1024_0_0, harg6.read_unread, harg3.read_unread, harg4.read_unread, View.ld_unit_zero (S := S1024x1024) zero2, View.ld_unit_zero (S := S1024x512) zero2]
  iexists _; isplitr
  swap; · iexact HS
  ipureintro
  sl_unfold_words
  rw [View.read_writes_eq_canon _ _ _ (fun y => ⟨_, List.mem_cons_self .., View.mem_set_unit_zero zero2 inb_S1024x1024_S1024x1024_0_0 y⟩), View.canon_cons_unit_zero zero2]
  simp only [View.readAt_eq_ld, View.readCov_unit_zero (S := S1024x1024) _ zero2 inb_S1024x1024_S1024x1024_0_0, harg6.read_unread, harg3.read_unread, harg4.read_unread, View.ld_unit_zero (S := S1024x1024) zero2, View.ld_unit_zero (S := S1024x512) zero2]

end Cert.Kernel.Hand

end
-- ==== Proof.BitsR0Oblig.lean ====
/-
  The body obligation of the first kernel region: at every grid point the kernel body, handed the region
  invariant and every window's current staging buffer, runs and hands back the invariant at the next point and the
  buffers at what the proof data say.  The point's residue mod 8 selects which of the three runs of the body applies:
  residue 0 restarts the accumulator, residue 7 also fills the output block, the others only accumulate.
-/
import proofs.«150280_j81003083202674_1_alg».proof.Proof.BitsR0Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Gen

section
variable (V : (c : Dev nD) → (b : Ref sig .tc) → Buf (Elt F) ((c : Thread nD τ).loc b))

/-- An input window's current staging buffer holds its block of the array at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 256 := lt_of_lt_of_eq t.isLt N0
  rw [PhiS0_castSucc V c t]
  by_cases h0 : t.val % 8 = 0
  · -- the accumulator restarts
    have h1 : ¬t.val % 8 = 7 := by omega
    have hc1 : ¬cond0_1 (grid0.coords t) := fun h => h1 ((hcond0_1 t).mp h)
    rw [Dat.leavesExact_idle (dat0 V c) 2 t (idleAt0_2 t hc1) (noFlush0_2 t hc1)]
    rw [acc0_first V c t h0]
    refine (BIClass.sep_mono (PhiS0_some V c _ _) (BI.Entails.refl _)).trans ?_
    iintro ⟨⟨⟨HS, HR⟩, Hg⟩, Ho, ⟨%d0, H0⟩, ⟨%d1, H1⟩, ⟨%d2, H2⟩⟩
    iapply (run0_A c (grid0.coords t) _ _ _ _ _ _ _ _ ((hcond0_0 t).mpr h0) hc1 (iblk0 V c 0 t) (iblk0 V c 1 t) _ Set.univ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · have hz : t.val ≠ 0 := fun h => h0 (by rw [h])
    rw [PhiS0_pos V c _ _ hz, acc0_step V c t h0]
    by_cases h1 : t.val % 8 = 7
    · -- the last contraction step: the output block is filled
      have hc1 : cond0_1 (grid0.coords t) := (hcond0_1 t).mpr h1
      rw [show (dat0 V c).leavesExact 2 t = owns (c : Thread nD τ) (st0_2 t) fullShare ((dat0 V c).after 2 t) from by
        unfold Dat.leavesExact; rw [liveAt0_2 t hc1], after0_2, acc0_step V c t h0]
      iintro ⟨⟨⟨HS, HR⟩, Hg⟩, Ho, ⟨%d0, H0⟩, ⟨%d1, H1⟩, ⟨%d2, H2⟩⟩
      iapply (run0_C c (grid0.coords t) _ _ _ _ _ _ _ _ (fun h => h0 ((hcond0_0 t).mp h)) hc1 (iblk0 V c 0 t) (iblk0 V c 1 t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · -- a middle step
      have hc1 : ¬cond0_1 (grid0.coords t) := fun h => h1 ((hcond0_1 t).mp h)
      rw [Dat.leavesExact_idle (dat0 V c) 2 t (idleAt0_2 t hc1) (noFlush0_2 t hc1)]
      iintro ⟨⟨⟨HS, HR⟩, Hg⟩, Ho, ⟨%d0, H0⟩, ⟨%d1, H1⟩, ⟨%d2, H2⟩⟩
      iapply (run0_B c (grid0.coords t) _ _ _ _ _ _ _ _ (fun h => h0 ((hcond0_0 t).mp h)) hc1 (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the class's: every scoped buffer of the rest at anything. -/
theorem Phi0_first (c : Dev nD) : (dat0 V c).Φ 0 = Pipeline.ΦA spec0 c := rfl

/-- After the last point it gives that back: the accumulator's contents are forgotten. -/
theorem Phi0_last (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  exact PhiS0_some V c _ _

end

end Cert.Kernel.Hand

end
-- ==== Proof.BitsR1Defs.lean ====
/-
  The proof data of the second kernel region (the weight update  w + c · postᵀ · x,  post = max(y − thr, 0)).
  Its grid is 16 × 16 = 256 points (output row block, batch block), the batch block running fastest, so point t
  has batch block t mod 16.  What the scratch accumulator holds after point t is defined by recursion on t: at a
  point with t mod 16 = 0 it restarts from the zero block, otherwise it adds the point's block product to what the
  point before left.  At the points with t mod 16 = 15, the only ones that write a block back, the output window's
  staging buffer holds the weight block plus the scaled accumulator.
  The region invariant carries the accumulator's contents from one point to the next.
-/
import proofs.«150280_j81003083202674_1_alg».proof.Proof.Gen.Kernel.Launch
import proofs.«150280_j81003083202674_1_alg».proof.Proof.Gen.Kernel.Skeleton
import proofs.«150280_j81003083202674_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Gen

/-- The kernel's first branch is taken exactly when the batch coordinate is zero. -/
abbrev cond1_0 (i : grid1.Coords) : Prop := (Scalar.cmpi .ne (Scalar.extui (Scalar.cmpi .eq (BitVec.ofNat 32 (i 1).val) 0#32)) 0#32) = 1#1
/-- Its second branch is taken exactly at the last batch block. -/
abbrev cond1_1 (i : grid1.Coords) : Prop := k1_cond2 i = 1#1

/-- The offsets of a whole-block access are all zero. -/
theorem zero2' : (![0, 0] : Fin 2 → Nat) = fun _ => 0 := funext fun a => by fin_cases a <;> rfl

/-- One accumulation step: the scratch contents `acc` plus the product of the rectified block of `y − thr` with the block of `x`. -/
abbrev step1 (acc : Vec F S256x4096 .f32) (y : Vec F S512x256 .f32) (th : Vec F S1x256 .f32) (x : Vec F S512x4096 .bf16) : Vec F S256x4096 .f32 := k1_pay2 y th x acc
/-- The first step starts from the zero block. -/
abbrev first1 (y : Vec F S512x256 .f32) (th : Vec F S1x256 .f32) (x : Vec F S512x4096 .bf16) : Vec F S256x4096 .f32 := k1_pay2 y th x (k1_pay1 (F := F))
/-- What the output block receives at the last step: the weight block plus the scaled accumulator. -/
abbrev fin1 (w : Vec F S256x4096 .f32) (acc : Vec F S256x4096 .f32) : Vec F S256x4096 .f32 := k1_pay3 w acc

theorem N1 : cfg1.N = 256 := N_1

/-- The first branch is taken at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)
/-- The second at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-- The input windows are never idle; the output window is idle, and not written back, off the last batch block. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

section
-- the buffer contents the region is entered from
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the scratch accumulator holds after point `n`. -/
def acc1 (c : Dev nD) : (n : ℕ) → n < cfg1.N → Vec F S256x4096 .f32
  | 0, hn => first1 (iblk1 V c 2 ⟨0, hn⟩) (iblk1 V c 3 ⟨0, hn⟩) (iblk1 V c 0 ⟨0, hn⟩)
  | n + 1, hn =>
    if (n + 1) % 16 = 0 then first1 (iblk1 V c 2 ⟨n + 1, hn⟩) (iblk1 V c 3 ⟨n + 1, hn⟩) (iblk1 V c 0 ⟨n + 1, hn⟩)
    else step1 (acc1 c n (Nat.lt_of_succ_lt hn)) (iblk1 V c 2 ⟨n + 1, hn⟩) (iblk1 V c 3 ⟨n + 1, hn⟩) (iblk1 V c 0 ⟨n + 1, hn⟩)

theorem acc1_first (c : Dev nD) (t : Fin cfg1.N) (h : t.val % 16 = 0) :
    acc1 V c t.val t.isLt = first1 (iblk1 V c 2 t) (iblk1 V c 3 t) (iblk1 V c 0 t) := by
  obtain ⟨n, hn⟩ := t
  cases n with
  | zero => rfl
  | succ n => exact if_pos h

theorem acc1_step (c : Dev nD) (t : Fin cfg1.N) (h : ¬t.val % 16 = 0) :
    acc1 V c t.val t.isLt = step1 (acc1 V c (t.val - 1) (Nat.lt_of_le_of_lt (Nat.sub_le _ _) t.isLt)) (iblk1 V c 2 t) (iblk1 V c 3 t) (iblk1 V c 0 t) := by
  obtain ⟨n, hn⟩ := t
  cases n with
  | zero => exact absurd (Nat.zero_mod _) h
  | succ n => exact if_neg h

/-- The scratch accumulator as a memref. -/
abbrev scM1 : Memref sig .tc .vmem S256x4096 .f32 := Memref.whole cc1_scratch0

/-- The scoped buffers no window of this region stages: the first region's, each at some contents, and the accumulator at `X`. -/
def rest1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ X)

/-- The class invariant with the accumulator named. -/
theorem PhiA1_eq (c : Dev nD) :
    (Pipeline.ΦA spec1 c : sProp 𝕄) = iprop(rest1 c (iprop(∃ d, owns (c : Thread nD τ) scM1 fullShare d)) ∗ (∃ r, prngReg c r)) := by
  unfold Pipeline.ΦA rest1; rw [scopedRest1_eq]; simp only [scM1, owns_whole]; try rfl

/-- The region invariant before position `n`: before the first point every scoped buffer at anything; afterwards the
    accumulator at what the point before left. -/
def PhiS1 (c : Dev nD) : (n : ℕ) → n ≤ cfg1.N → sProp 𝕄
  | 0, _ => Pipeline.ΦA spec1 c
  | n + 1, hn => iprop(rest1 c (owns (c : Thread nD τ) scM1 fullShare (acc1 V c n hn)) ∗ (∃ r, prngReg c r))

theorem PhiS1_succ (c : Dev nD) (n : ℕ) (hn : n < cfg1.N) :
    PhiS1 V c (n + 1) hn = iprop(rest1 c (owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(rest1 c (owns (c : Thread nD τ) scM1 fullShare (acc1 V c (n - 1) (by omega))) ∗ (∃ r, prngReg c r)) := by
  cases n with
  | zero => exact absurd rfl hz
  | succ n => rfl

/-- At any position the invariant holds the accumulator at SOME contents. -/
theorem PhiS1_some (c : Dev nD) (n : ℕ) (h : n ≤ cfg1.N) :
    PhiS1 V c n h ⊢ iprop(rest1 c (iprop(∃ d, owns (c : Thread nD τ) scM1 fullShare d)) ∗ (∃ r, prngReg c r)) := by
  cases n with
  | zero => rw [show PhiS1 V c 0 h = Pipeline.ΦA spec1 c from rfl, PhiA1_eq]
  | succ n =>
    rw [PhiS1_succ]; unfold rest1
    iintro ⟨⟨A1, A2, A3, A4, A5, A6, A7, HS⟩, Hg⟩
    isplitr [Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      iexists _; iexact HS
    iexact Hg

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => fin1 (iblk1 V c 1 t) (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = fin1 (iblk1 V c 1 t) (acc1 V c t.val t.isLt) := by dsimp only [dat1]

end

end Cert.Kernel.Hand

end
-- ==== Proof.BitsR1Body.lean ====
/-
  The three ways one grid point of the second kernel (the weight update  w + c · postᵀ · x,  post = max(y − thr, 0))
  can run, as separation-logic triples over whole staging buffers.  The grid is (output row block, batch block); the
  scratch buffer accumulates the partial products  post_blkᵀ · x_blk  over the batch blocks of one output row block:
    * at the first batch block the scratch is zeroed and then receives  0 + post_blkᵀ · x_blk;
    * at a middle block it receives  scratch + post_blkᵀ · x_blk;
    * at the last block it does the same and the output block receives  w_blk + c · scratch.
  In every case the four inputs are handed back unchanged.
-/
import proofs.«150280_j81003083202674_1_alg».proof.Proof.BitsR1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Gen

set_option maxHeartbeats 1000000 in
/-- First batch block: whatever the scratch held, it ends at `0 + post_blkᵀ · x_blk`; the output block is untouched. -/
theorem run1_A (c : Dev nD) (i : grid1.Coords) (arg2 : Memref sig .tc .vmem S512x4096 .bf16) (harg2 : arg2.IsWhole) (arg3 : Memref sig .tc .vmem S256x4096 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x4096 .f32) (harg6 : arg6.IsWhole) (arg7 : Memref sig .tc .vmem S256x4096 .f32) (harg7 : arg7.IsWhole)
    (hc0 : cond1_0 i) (hc1 : ¬cond1_1 i)
    (x : Vec F S512x4096 .bf16) (w : Vec F S256x4096 .f32) (y : Vec F S512x256 .f32) (th : Vec F S1x256 .f32) (xi : Vec F S256x4096 .f32) (E : Set ℕ) (K : PUnit → sProp 𝕄) :
    iprop(owns (c : Thread nD τ) arg2 fullShare x ∗ owns (c : Thread nD τ) arg3 fullShare w ∗ owns (c : Thread nD τ) arg4 fullShare y ∗ owns (c : Thread nD τ) arg5 fullShare th ∗ owns (c : Thread nD τ) arg6 fullShare xi ∗ (∃ d, owns (c : Thread nD τ) arg7 fullShare d)
        ∗ (iprop(owns (c : Thread nD τ) arg2 fullShare x ∗ owns (c : Thread nD τ) arg3 fullShare w ∗ owns (c : Thread nD τ) arg4 fullShare y ∗ owns (c : Thread nD τ) arg5 fullShare th ∗ owns (c : Thread nD τ) arg6 fullShare xi ∗ owns (c : Thread nD τ) arg7 fullShare (first1 y th x)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%ds, %fs, -, HS⟩, Hk⟩
  obtain rfl := harg2.eq_unread hf2; obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact HS
  ipureintro
  sl_unfold_words
  rw [View.read_writes_eq_canon _ _ _ (fun y => ⟨_, List.mem_cons_self .., View.mem_set_unit_zero zero2' inb_S256x4096_S256x4096_0_0 y⟩), View.canon_cons_unit_zero zero2']
  simp only [View.readAt_eq_ld, View.readCov_unit_zero (S := S256x4096) _ zero2' inb_S256x4096_S256x4096_0_0, harg7.read_unread, harg2.read_unread, harg3.read_unread, harg4.read_unread, harg5.read_unread, View.ld_unit_zero (S := S256x4096) zero2', View.ld_unit_zero (S := S512x4096) zero2', View.ld_unit_zero (S := S512x256) zero2', View.ld_unit_zero (S := S1x256) zero2']

set_option maxHeartbeats 1000000 in
/-- A middle batch block: the scratch goes from `xs` to `xs + post_blkᵀ · x_blk`; the output block is untouched. -/
theorem run1_B (c : Dev nD) (i : grid1.Coords) (arg2 : Memref sig .tc .vmem S512x4096 .bf16) (harg2 : arg2.IsWhole) (arg3 : Memref sig .tc .vmem S256x4096 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x4096 .f32) (harg6 : arg6.IsWhole) (arg7 : Memref sig .tc .vmem S256x4096 .f32) (harg7 : arg7.IsWhole)
    (hc0 : ¬cond1_0 i) (hc1 : ¬cond1_1 i)
    (x : Vec F S512x4096 .bf16) (w : Vec F S256x4096 .f32) (y : Vec F S512x256 .f32) (th : Vec F S1x256 .f32) (xi : Vec F S256x4096 .f32) (xs : Vec F S256x4096 .f32) (E : Set ℕ) (K : PUnit → sProp 𝕄) :
    iprop(owns (c : Thread nD τ) arg2 fullShare x ∗ owns (c : Thread nD τ) arg3 fullShare w ∗ owns (c : Thread nD τ) arg4 fullShare y ∗ owns (c : Thread nD τ) arg5 fullShare th ∗ owns (c : Thread nD τ) arg6 fullShare xi ∗ owns (c : Thread nD τ) arg7 fullShare xs
        ∗ (iprop(owns (c : Thread nD τ) arg2 fullShare x ∗ owns (c : Thread nD τ) arg3 fullShare w ∗ owns (c : Thread nD τ) arg4 fullShare y ∗ owns (c : Thread nD τ) arg5 fullShare th ∗ owns (c : Thread nD τ) arg6 fullShare xi ∗ owns (c : Thread nD τ) arg7 fullShare (step1 xs y th x)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hfs
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact HS
  ipureintro
  sl_unfold_words
  rw [View.read_writes_eq_canon _ _ _ (fun y => ⟨_, List.mem_cons_self .., View.mem_set_unit_zero zero2' inb_S256x4096_S256x4096_0_0 y⟩), View.canon_cons_unit_zero zero2']
  simp only [View.readAt_eq_ld, View.readCov_unit_zero (S := S256x4096) _ zero2' inb_S256x4096_S256x4096_0_0, harg7.read_unread, harg2.read_unread, harg3.read_unread, harg4.read_unread, harg5.read_unread, View.ld_unit_zero (S := S256x4096) zero2', View.ld_unit_zero (S := S512x4096) zero2', View.ld_unit_zero (S := S512x256) zero2', View.ld_unit_zero (S := S1x256) zero2']

set_option maxHeartbeats 1000000 in
/-- The last batch block: the scratch goes from `xs` to `xs + post_blkᵀ · x_blk`, and the output block receives the
    weight block plus that sum scaled. -/
theorem run1_C (c : Dev nD) (i : grid1.Coords) (arg2 : Memref sig .tc .vmem S512x4096 .bf16) (harg2 : arg2.IsWhole) (arg3 : Memref sig .tc .vmem S256x4096 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x4096 .f32) (harg6 : arg6.IsWhole) (arg7 : Memref sig .tc .vmem S256x4096 .f32) (harg7 : arg7.IsWhole)
    (hc0 : ¬cond1_0 i) (hc1 : cond1_1 i)
    (x : Vec F S512x4096 .bf16) (w : Vec F S256x4096 .f32) (y : Vec F S512x256 .f32) (th : Vec F S1x256 .f32) (xs : Vec F S256x4096 .f32) (E : Set ℕ) (K : PUnit → sProp 𝕄) :
    iprop(owns (c : Thread nD τ) arg2 fullShare x ∗ owns (c : Thread nD τ) arg3 fullShare w ∗ owns (c : Thread nD τ) arg4 fullShare y ∗ owns (c : Thread nD τ) arg5 fullShare th ∗ (∃ d, owns (c : Thread nD τ) arg6 fullShare d) ∗ owns (c : Thread nD τ) arg7 fullShare xs
        ∗ (iprop(owns (c : Thread nD τ) arg2 fullShare x ∗ owns (c : Thread nD τ) arg3 fullShare w ∗ owns (c : Thread nD τ) arg4 fullShare y ∗ owns (c : Thread nD τ) arg5 fullShare th ∗ owns (c : Thread nD τ) arg6 fullShare (fin1 w (step1 xs y th x)) ∗ owns (c : Thread nD τ) arg7 fullShare (step1 xs y th x)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf2; obtain rfl := harg3.eq_unread hf3; obtain rfl := harg4.eq_unread hf4; obtain rfl := harg5.eq_unread hf5; obtain rfl := harg7.eq_unread hfs
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [View.read_writes_eq_canon _ _ _ (fun y => ⟨_, List.mem_cons_self .., View.mem_set_unit_zero zero2' inb_S256x4096_S256x4096_0_0 y⟩), View.canon_cons_unit_zero zero2']
    simp only [View.readAt_eq_ld, View.readCov_unit_zero (S := S256x4096) _ zero2' inb_S256x4096_S256x4096_0_0, harg7.read_unread, harg2.read_unread, harg3.read_unread, harg4.read_unread, harg5.read_unread, View.ld_unit_zero (S := S256x4096) zero2', View.ld_unit_zero (S := S512x4096) zero2', View.ld_unit_zero (S := S512x256) zero2', View.ld_unit_zero (S := S1x256) zero2']
  iexists _; isplitr
  swap; · iexact HS
  ipureintro
  sl_unfold_words
  rw [View.read_writes_eq_canon _ _ _ (fun y => ⟨_, List.mem_cons_self .., View.mem_set_unit_zero zero2' inb_S256x4096_S256x4096_0_0 y⟩), View.canon_cons_unit_zero zero2']
  simp only [View.readAt_eq_ld, View.readCov_unit_zero (S := S256x4096) _ zero2' inb_S256x4096_S256x4096_0_0, harg7.read_unread, harg2.read_unread, harg3.read_unread, harg4.read_unread, harg5.read_unread, View.ld_unit_zero (S := S256x4096) zero2', View.ld_unit_zero (S := S512x4096) zero2', View.ld_unit_zero (S := S512x256) zero2', View.ld_unit_zero (S := S1x256) zero2']

end Cert.Kernel.Hand

end
-- ==== Proof.BitsR1Oblig.lean ====
/-
  The body obligation of the second kernel region: at every grid point the kernel body, handed the region
  invariant and every window's current staging buffer, runs and hands back the invariant at the next point and the
  buffers at what the proof data say.  The point's residue mod 16 selects which of the three runs of the body applies:
  residue 0 restarts the accumulator, residue 15 also fills the output block, the others only accumulate.
-/
import proofs.«150280_j81003083202674_1_alg».proof.Proof.BitsR1Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Gen

section
variable (V : (c : Dev nD) → (b : Ref sig .tc) → Buf (Elt F) ((c : Thread nD τ).loc b))

/-- An input window's current staging buffer holds its block of the array at every point, fetched there or not
    (the weight and threshold windows are fetched only when the output row block changes). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  have hN : t.val < 256 := lt_of_lt_of_eq t.isLt N1
  rw [PhiS1_castSucc V c t]
  by_cases h0 : t.val % 16 = 0
  · -- the accumulator restarts
    have h1 : ¬t.val % 16 = 15 := by omega
    have hc1 : ¬cond1_1 (grid1.coords t) := fun h => h1 ((hcond1_1 t).mp h)
    rw [Dat.leavesExact_idle (dat1 V c) 4 t (idleAt1_4 t hc1) (noFlush1_4 t hc1)]
    rw [acc1_first V c t h0]
    refine (BIClass.sep_mono (PhiS1_some V c _ _) (BI.Entails.refl _)).trans ?_
    unfold rest1
    iintro ⟨⟨⟨A1, A2, A3, A4, A5, A6, A7, HS⟩, Hg⟩, Ho, ⟨%d0, H0⟩, ⟨%d1, H1⟩, ⟨%d2, H2⟩, ⟨%d3, H3⟩, ⟨%d4, H4⟩⟩
    iapply (run1_A c (grid1.coords t) _ _ _ _ _ _ _ _ _ _ _ _ ((hcond1_0 t).mpr h0) hc1 (iblk1 V c 0 t) (iblk1 V c 1 t) (iblk1 V c 2 t) (iblk1 V c 3 t) _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [A1 A2 A3 A4 A5 A6 A7 HS Hg]
    · isplitr [Hg]
      · isplitl [A1]; · iexact A1
        isplitl [A2]; · iexact A2
        isplitl [A3]; · iexact A3
        isplitl [A4]; · iexact A4
        isplitl [A5]; · iexact A5
        isplitl [A6]; · iexact A6
        isplitl [A7]; · iexact A7
        iexact HS
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [PhiS1_pos V c _ _ hz, acc1_step V c t h0]
    by_cases h1 : t.val % 16 = 15
    · -- the last batch block: the output block is filled
      have hc1 : cond1_1 (grid1.coords t) := (hcond1_1 t).mpr h1
      rw [show (dat1 V c).leavesExact 4 t = owns (c : Thread nD τ) (st1_4 t) fullShare ((dat1 V c).after 4 t) from by
        unfold Dat.leavesExact; rw [liveAt1_4 t hc1], after1_4, acc1_step V c t h0]
      unfold rest1
      iintro ⟨⟨⟨A1, A2, A3, A4, A5, A6, A7, HS⟩, Hg⟩, Ho, ⟨%d0, H0⟩, ⟨%d1, H1⟩, ⟨%d2, H2⟩, ⟨%d3, H3⟩, ⟨%d4, H4⟩⟩
      iapply (run1_C c (grid1.coords t) _ _ _ _ _ _ _ _ _ _ _ _ (fun h => h0 ((hcond1_0 t).mp h)) hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [A1 A2 A3 A4 A5 A6 A7 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          iexact HS
        iexact Hg
      isplitl [Ho]; · iexact Ho
      isplitl [H0]; · iexact H0
      isplitl [H1]; · iexact H1
      isplitl [H2]; · iexact H2
      isplitl [H3]; · iexact H3
      iexact H4
    · -- a middle batch block
      have hc1 : ¬cond1_1 (grid1.coords t) := fun h => h1 ((hcond1_1 t).mp h)
      rw [Dat.leavesExact_idle (dat1 V c) 4 t (idleAt1_4 t hc1) (noFlush1_4 t hc1)]
      unfold rest1
      iintro ⟨⟨⟨A1, A2, A3, A4, A5, A6, A7, HS⟩, Hg⟩, Ho, ⟨%d0, H0⟩, ⟨%d1, H1⟩, ⟨%d2, H2⟩, ⟨%d3, H3⟩, ⟨%d4, H4⟩⟩
      iapply (run1_B c (grid1.coords t) _ _ _ _ _ _ _ _ _ _ _ _ (fun h => h0 ((hcond1_0 t).mp h)) hc1 (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [A1 A2 A3 A4 A5 A6 A7 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's: every scoped buffer of the rest at anything. -/
theorem Phi1_first (c : Dev nD) : (dat1 V c).Φ 0 = Pipeline.ΦA spec1 c := rfl

/-- After the last point it gives that back: the accumulator's contents are forgotten. -/
theorem Phi1_last (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_some V c _ _

end

end Cert.Kernel.Hand

end
-- ==== Proof.BitsRun.lean ====
/-
  The whole run of the program, from the launch to the return, at any float instance.
  The program is: two casts of the inputs to the narrow float format, the first kernel region (x · wᵀ), twelve
  host operations computing the new threshold from that product, and the second kernel region (the weight update).
  The contents of every buffer at each of the five boundaries between these pieces are a fold from the launch
  memory: a host stretch applies its operations; a kernel region replaces its windows' arrays by what its
  write-backs leave (the inputs unchanged, the output assembled block by block) and leaves every other buffer alone.
  The run ends with every unscoped buffer at the last boundary's contents; in particular no piece writes an argument.
-/
import proofs.«150280_j81003083202674_1_alg».proof.Proof.BitsR0Oblig
import proofs.«150280_j81003083202674_1_alg».proof.Proof.BitsR1Oblig
import proofs.«150280_j81003083202674_1_alg».proof.Proof.Gen.Kernel.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Gen

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the two casts (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the threshold's host operations (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What each piece leaves alone -/

/-- The casts write only their two results. -/
theorem W1_of (c : Dev nD) (r : Ref sig .tc) (h : r ∉ hostOps0_W) : W1 m ρ c r = W0 m ρ c r :=
  StableHlo.after_of_writes_sub hostOps0 _ hostOps0_writes h
/-- The threshold's operations write only their twelve results. -/
theorem W3_of (c : Dev nD) (r : Ref sig .tc) (h : r ∉ hostOps1_W) : W3 m ρ c r = W2 m ρ c r :=
  StableHlo.after_of_writes_sub hostOps1 _ hostOps1_writes h
/-- An input window's array leaves the first region as it entered, -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- and the second. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- No piece writes an argument. -/
theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    (W2_of_ne m ρ c main_arg0 (by decide)).trans <| (W1_of m ρ c main_arg0 (by decide)).trans rfl
theorem W4_main_arg1 (c : Dev nD) : W4 m ρ c (Proc.devRef .tc main_arg1) = m ((c : Thread nD τ).loc main_arg1) :=
  (W4_in m ρ c 1 rfl).trans <| (W3_of m ρ c main_arg1 (by decide)).trans <|
    (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans <| (W1_of m ρ c main_arg2 (by decide)).trans rfl

/-! ## The proof data family and the thread state -/

abbrev adm' : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every piece: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as pieces of the run -/

set_option backward.isDefEq.respectTransparency.types false in
/-- The first region: entered from every unscoped buffer at `W1`, left at `W2`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (pdats m ρ 0 c).Φ (Fin.last _) ⊢ (Pipeline.ΦA spec0 c : sProp 𝕄) := Phi0_last (V1 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W3`, left at `W4`. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (pdats m ρ 1 c).Φ (Fin.last _) ⊢ (Pipeline.ΦA spec1 c : sProp 𝕄) := Phi1_last (V3 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four pieces, and the launch -/

abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- In particular the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_main m ρ)

end Cert.Kernel.Hand

end
-- ==== Proof.R0Defs.lean ====
/-
  The proof data of the first kernel region (the blocked product x · wᵀ).
  Its grid is 8 × 4 × 8 = 256 points (row block, column block, contraction block), the contraction block
  running fastest, so point t has contraction block t mod 8.  What the scratch accumulator holds after point t
  is defined by recursion on t: at a point with t mod 8 = 0 it restarts from the zero block, otherwise it adds
  the point's block product to what the point before left.  The output window's staging buffer holds that
  accumulator at the points with t mod 8 = 7, the only points that write a block back.
  The region invariant carries the accumulator's contents from one point to the next.
-/
import proofs.«150280_j81003083202674_1_alg».proof.Proof.Gen.KernelIdeal.Launch
import proofs.«150280_j81003083202674_1_alg».proof.Proof.Gen.KernelIdeal.Skeleton
import proofs.«150280_j81003083202674_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Gen

/-- The kernel's first branch is taken exactly when the contraction coordinate is zero. -/
abbrev cond0_0 (i : grid0.Coords) : Prop := (Scalar.cmpi .ne (Scalar.extui (Scalar.cmpi .eq (BitVec.ofNat 32 (i 2).val) 0#32)) 0#32) = 1#1
/-- Its second branch is taken exactly at the last contraction step. -/
abbrev cond0_1 (i : grid0.Coords) : Prop := k0_cond2 i = 1#1

/-- The offsets of a whole-block access are all zero. -/
theorem zero2 : (![0, 0] : Fin 2 → Nat) = fun _ => 0 := funext fun a => by fin_cases a <;> rfl

/-- One accumulation step: the scratch contents `acc` plus the product of the two input blocks. -/
abbrev step0 (acc : Vec F S1024x1024 .f32) (x0 x1 : Vec F S1024x512 .bf16) : Vec F S1024x1024 .f32 := k0_pay2 acc x0 x1
/-- The first step starts from the zero block. -/
abbrev first0 (x0 x1 : Vec F S1024x512 .bf16) : Vec F S1024x1024 .f32 := k0_pay2 (k0_pay1 (F := F)) x0 x1

theorem N0 : cfg0.N = 256 := N_0

/-- The first branch is taken at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)
/-- The second at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-- The input windows are never idle; the output window is idle, and not written back, off the last contraction step. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

section
-- the buffer contents the region is entered from
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the scratch accumulator holds after point `n`. -/
def acc0 (c : Dev nD) : (n : ℕ) → n < cfg0.N → Vec F S1024x1024 .f32
  | 0, hn => first0 (iblk0 V c 0 ⟨0, hn⟩) (iblk0 V c 1 ⟨0, hn⟩)
  | n + 1, hn =>
    if (n + 1) % 8 = 0 then first0 (iblk0 V c 0 ⟨n + 1, hn⟩) (iblk0 V c 1 ⟨n + 1, hn⟩)
    else step0 (acc0 c n (Nat.lt_of_succ_lt hn)) (iblk0 V c 0 ⟨n + 1, hn⟩) (iblk0 V c 1 ⟨n + 1, hn⟩)

theorem acc0_first (c : Dev nD) (t : Fin cfg0.N) (h : t.val % 8 = 0) :
    acc0 V c t.val t.isLt = first0 (iblk0 V c 0 t) (iblk0 V c 1 t) := by
  obtain ⟨n, hn⟩ := t
  cases n with
  | zero => rfl
  | succ n => exact if_pos h

theorem acc0_step (c : Dev nD) (t : Fin cfg0.N) (h : ¬t.val % 8 = 0) :
    acc0 V c t.val t.isLt = step0 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h
  | succ n => exact if_neg h

/-- The scratch accumulator as a memref. -/
abbrev scM0 : Memref sig .tc .vmem S1024x1024 .f32 := Memref.whole cc0_scratch0

/-- The other scoped buffers no window of this region stages (the second region's), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the accumulator split off. -/
theorem PhiA0_eq (c : Dev nD) :
    (Pipeline.ΦA spec0 c : sProp 𝕄) = iprop(iprop((∃ d, owns (c : Thread nD τ) scM0 fullShare d) ∗ rest0 c) ∗ (∃ r, prngReg c r)) := by
  unfold Pipeline.ΦA rest0; rw [scopedRest0_eq]; simp only [scM0, owns_whole]; try rfl

/-- The region invariant before position `n`: before the first point every scoped buffer at anything; afterwards the
    accumulator at what the point before left. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 c) ∗ (∃ r, prngReg c r))

theorem PhiS0_succ (c : Dev nD) (n : ℕ) (hn : n < cfg0.N) :
    PhiS0 V c (n + 1) hn = iprop(iprop(owns (c : Thread nD τ) scM0 fullShare (acc0 V c n hn) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 c) ∗ (∃ r, prngReg c r)) := by
  cases n with
  | zero => exact absurd rfl hz
  | succ n => rfl

/-- At any position the invariant holds the accumulator at SOME contents. -/
theorem PhiS0_some (c : Dev nD) (n : ℕ) (h : n ≤ cfg0.N) :
    PhiS0 V c n h ⊢ iprop(iprop((∃ d, owns (c : Thread nD τ) scM0 fullShare d) ∗ rest0 c) ∗ (∃ r, prngReg c r)) := by
  cases n with
  | zero => rw [show PhiS0 V c 0 h = Pipeline.ΦA spec0 c from rfl, PhiA0_eq]
  | succ n =>
    rw [PhiS0_succ]
    iintro ⟨⟨HS, HR⟩, Hg⟩
    isplitl [HS HR]
    · isplitl [HS]; · iexists _; iexact HS
      iexact HR
    iexact Hg

/-- The proof data of the region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

end

end Cert.KernelIdeal.Hand

end
-- ==== Proof.R0Body.lean ====
/-
  The three ways one grid point of the first kernel (the blocked product x · wᵀ) can run, as separation-logic
  triples over whole staging buffers.  The grid is (row block, column block, contraction block); the scratch
  buffer accumulates the partial products over the contraction blocks of one (row block, column block) pair:
    * at the first contraction block the scratch is zeroed and then receives  0 + x_blk · w_blkᵀ;
    * at a middle block it receives  scratch + x_blk · w_blkᵀ;
    * at the last block it does the same and the sum is copied into the output block.
  In every case the inputs are handed back unchanged.
-/
import proofs.«150280_j81003083202674_1_alg».proof.Proof.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Gen

set_option maxHeartbeats 1000000 in
/-- First contraction block: whatever the scratch held, it ends at `0 + x_blk · w_blkᵀ`; the output block is untouched. -/
theorem run0_A (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1024x1024 .f32) (harg6 : arg6.IsWhole)
    (hc0 : cond0_0 i) (hc1 : ¬cond0_1 i)
    (x0 : Vec F S1024x512 .bf16) (x1 : Vec F S1024x512 .bf16) (xi : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare xi ∗ (∃ d, owns (c : Thread nD τ) arg6 fullShare d)
        ∗ (iprop(owns (c : Thread nD τ) arg3 fullShare x0 ∗ owns (c : Thread nD τ) arg4 fullShare x1 ∗ owns (c : Thread nD τ) arg5 fullShare xi ∗ owns (c : Thread nD τ) arg6 fullShare (first0 x0 x1)) -∗ K ⟨⟩))
      ⊢ wp frame (wpE (defs₀ (F := F)) Variants.none c none) E (cc0_kernel i arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons_self .., View.mem_set_unit_zero zero2 inb_S1024x1024_S1024x1024_0_0 y⟩), View.canon_cons_unit_zero zero2]
  simp only [View.readAt_eq_ld, View.readCov_unit_zero (S := S1024x1024) _ zero2 inb_S1024x1024_S1024x1024_0_0, harg6.read_unread, harg3.read_unread, harg4.read_unread, View.ld_unit_zero (S := S1024x1024) zero2, View.ld_unit_zero (S := S1024x512) zero2]

set_option maxHeartbeats 1000000 in
/-- A middle contraction block: the scratch goes from `xs` to `xs + x_blk · w_blkᵀ`; the output block is untouched. -/
theorem run0_B (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1024x1024 .f32) (harg6 : arg6.IsWhole)
    (hc0 : ¬cond0_0 i) (hc1 : ¬cond0_1 i)
    (x0 : Vec F S1024x512 .bf16) (x1 : Vec F S1024x512 .bf16) (xi : Vec F S1024x1024 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare xi ∗ owns (c : Thread nD τ) arg6 fullShare xs
        ∗ (iprop(owns (c : Thread nD τ) arg3 fullShare x0 ∗ owns (c : Thread nD τ) arg4 fullShare x1 ∗ owns (c : Thread nD τ) arg5 fullShare xi ∗ owns (c : Thread nD τ) arg6 fullShare (step0 xs x0 x1)) -∗ K ⟨⟩))
      ⊢ wp frame (wpE (defs₀ (F := F)) Variants.none c none) E (cc0_kernel i arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons_self .., View.mem_set_unit_zero zero2 inb_S1024x1024_S1024x1024_0_0 y⟩), View.canon_cons_unit_zero zero2]
  simp only [View.readAt_eq_ld, View.readCov_unit_zero (S := S1024x1024) _ zero2 inb_S1024x1024_S1024x1024_0_0, harg6.read_unread, harg3.read_unread, harg4.read_unread, View.ld_unit_zero (S := S1024x1024) zero2, View.ld_unit_zero (S := S1024x512) zero2]

set_option maxHeartbeats 1000000 in
/-- The last contraction block: the scratch goes from `xs` to `xs + x_blk · w_blkᵀ`, and the output block receives that sum. -/
theorem run0_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1024x1024 .f32) (harg6 : arg6.IsWhole)
    (hc0 : ¬cond0_0 i) (hc1 : cond0_1 i)
    (x0 : Vec F S1024x512 .bf16) (x1 : Vec F S1024x512 .bf16) (xs : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (step0 xs x0 x1) ∗ owns (c : Thread nD τ) arg6 fullShare (step0 xs x0 x1)) -∗ K ⟨⟩))
      ⊢ wp frame (wpE (defs₀ (F := F)) Variants.none c none) E (cc0_kernel i arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (fun y => ⟨_, List.mem_cons_self .., View.mem_set_unit_zero zero2 inb_S1024x1024_S1024x1024_0_0 y⟩), View.canon_cons_unit_zero zero2]
    simp only [View.readAt_eq_ld, View.readCov_unit_zero (S := S1024x1024) _ zero2 inb_S1024x1024_S1024x1024_0_0, harg6.read_unread, harg3.read_unread, harg4.read_unread, View.ld_unit_zero (S := S1024x1024) zero2, View.ld_unit_zero (S := S1024x512) zero2]
  iexists _; isplitr
  swap; · iexact HS
  ipureintro
  sl_unfold_words
  rw [View.read_writes_eq_canon _ _ _ (fun y => ⟨_, List.mem_cons_self .., View.mem_set_unit_zero zero2 inb_S1024x1024_S1024x1024_0_0 y⟩), View.canon_cons_unit_zero zero2]
  simp only [View.readAt_eq_ld, View.readCov_unit_zero (S := S1024x1024) _ zero2 inb_S1024x1024_S1024x1024_0_0, harg6.read_unread, harg3.read_unread, harg4.read_unread, View.ld_unit_zero (S := S1024x1024) zero2, View.ld_unit_zero (S := S1024x512) zero2]

end Cert.KernelIdeal.Hand

end
-- ==== Proof.R0Oblig.lean ====
/-
  The body obligation of the first kernel region: at every grid point the kernel body, handed the region
  invariant and every window's current staging buffer, runs and hands back the invariant at the next point and the
  buffers at what the proof data say.  The point's residue mod 8 selects which of the three runs of the body applies:
  residue 0 restarts the accumulator, residue 7 also fills the output block, the others only accumulate.
-/
import proofs.«150280_j81003083202674_1_alg».proof.Proof.R0Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Gen

section
variable (V : (c : Dev nD) → (b : Ref sig .tc) → Buf (Elt F) ((c : Thread nD τ).loc b))

/-- An input window's current staging buffer holds its block of the array at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 256 := lt_of_lt_of_eq t.isLt N0
  rw [PhiS0_castSucc V c t]
  by_cases h0 : t.val % 8 = 0
  · -- the accumulator restarts
    have h1 : ¬t.val % 8 = 7 := by omega
    have hc1 : ¬cond0_1 (grid0.coords t) := fun h => h1 ((hcond0_1 t).mp h)
    rw [Dat.leavesExact_idle (dat0 V c) 2 t (idleAt0_2 t hc1) (noFlush0_2 t hc1)]
    rw [acc0_first V c t h0]
    refine (BIClass.sep_mono (PhiS0_some V c _ _) (BI.Entails.refl _)).trans ?_
    iintro ⟨⟨⟨HS, HR⟩, Hg⟩, Ho, ⟨%d0, H0⟩, ⟨%d1, H1⟩, ⟨%d2, H2⟩⟩
    iapply (run0_A c (grid0.coords t) _ _ _ _ _ _ _ _ ((hcond0_0 t).mpr h0) hc1 (iblk0 V c 0 t) (iblk0 V c 1 t) _ Set.univ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · have hz : t.val ≠ 0 := fun h => h0 (by rw [h])
    rw [PhiS0_pos V c _ _ hz, acc0_step V c t h0]
    by_cases h1 : t.val % 8 = 7
    · -- the last contraction step: the output block is filled
      have hc1 : cond0_1 (grid0.coords t) := (hcond0_1 t).mpr h1
      rw [show (dat0 V c).leavesExact 2 t = owns (c : Thread nD τ) (st0_2 t) fullShare ((dat0 V c).after 2 t) from by
        unfold Dat.leavesExact; rw [liveAt0_2 t hc1], after0_2, acc0_step V c t h0]
      iintro ⟨⟨⟨HS, HR⟩, Hg⟩, Ho, ⟨%d0, H0⟩, ⟨%d1, H1⟩, ⟨%d2, H2⟩⟩
      iapply (run0_C c (grid0.coords t) _ _ _ _ _ _ _ _ (fun h => h0 ((hcond0_0 t).mp h)) hc1 (iblk0 V c 0 t) (iblk0 V c 1 t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · -- a middle step
      have hc1 : ¬cond0_1 (grid0.coords t) := fun h => h1 ((hcond0_1 t).mp h)
      rw [Dat.leavesExact_idle (dat0 V c) 2 t (idleAt0_2 t hc1) (noFlush0_2 t hc1)]
      iintro ⟨⟨⟨HS, HR⟩, Hg⟩, Ho, ⟨%d0, H0⟩, ⟨%d1, H1⟩, ⟨%d2, H2⟩⟩
      iapply (run0_B c (grid0.coords t) _ _ _ _ _ _ _ _ (fun h => h0 ((hcond0_0 t).mp h)) hc1 (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the class's: every scoped buffer of the rest at anything. -/
theorem Phi0_first (c : Dev nD) : (dat0 V c).Φ 0 = Pipeline.ΦA spec0 c := rfl

/-- After the last point it gives that back: the accumulator's contents are forgotten. -/
theorem Phi0_last (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  exact PhiS0_some V c _ _

end

end Cert.KernelIdeal.Hand

end
-- ==== Proof.R1Defs.lean ====
/-
  The proof data of the second kernel region (the weight update  w + c · postᵀ · x,  post = max(y − thr, 0)).
  Its grid is 16 × 16 = 256 points (output row block, batch block), the batch block running fastest, so point t
  has batch block t mod 16.  What the scratch accumulator holds after point t is defined by recursion on t: at a
  point with t mod 16 = 0 it restarts from the zero block, otherwise it adds the point's block product to what the
  point before left.  At the points with t mod 16 = 15, the only ones that write a block back, the output window's
  staging buffer holds the weight block plus the scaled accumulator.
  The region invariant carries the accumulator's contents from one point to the next.
-/
import proofs.«150280_j81003083202674_1_alg».proof.Proof.Gen.KernelIdeal.Launch
import proofs.«150280_j81003083202674_1_alg».proof.Proof.Gen.KernelIdeal.Skeleton
import proofs.«150280_j81003083202674_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Gen

/-- The kernel's first branch is taken exactly when the batch coordinate is zero. -/
abbrev cond1_0 (i : grid1.Coords) : Prop := (Scalar.cmpi .ne (Scalar.extui (Scalar.cmpi .eq (BitVec.ofNat 32 (i 1).val) 0#32)) 0#32) = 1#1
/-- Its second branch is taken exactly at the last batch block. -/
abbrev cond1_1 (i : grid1.Coords) : Prop := k1_cond2 i = 1#1

/-- The offsets of a whole-block access are all zero. -/
theorem zero2' : (![0, 0] : Fin 2 → Nat) = fun _ => 0 := funext fun a => by fin_cases a <;> rfl

/-- One accumulation step: the scratch contents `acc` plus the product of the rectified block of `y − thr` with the block of `x`. -/
abbrev step1 (acc : Vec F S256x4096 .f32) (y : Vec F S512x256 .f32) (th : Vec F S1x256 .f32) (x : Vec F S512x4096 .bf16) : Vec F S256x4096 .f32 := k1_pay2 y th x acc
/-- The first step starts from the zero block. -/
abbrev first1 (y : Vec F S512x256 .f32) (th : Vec F S1x256 .f32) (x : Vec F S512x4096 .bf16) : Vec F S256x4096 .f32 := k1_pay2 y th x (k1_pay1 (F := F))
/-- What the output block receives at the last step: the weight block plus the scaled accumulator. -/
abbrev fin1 (w : Vec F S256x4096 .f32) (acc : Vec F S256x4096 .f32) : Vec F S256x4096 .f32 := k1_pay3 w acc

theorem N1 : cfg1.N = 256 := N_1

/-- The first branch is taken at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)
/-- The second at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-- The input windows are never idle; the output window is idle, and not written back, off the last batch block. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

section
-- the buffer contents the region is entered from
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the scratch accumulator holds after point `n`. -/
def acc1 (c : Dev nD) : (n : ℕ) → n < cfg1.N → Vec F S256x4096 .f32
  | 0, hn => first1 (iblk1 V c 2 ⟨0, hn⟩) (iblk1 V c 3 ⟨0, hn⟩) (iblk1 V c 0 ⟨0, hn⟩)
  | n + 1, hn =>
    if (n + 1) % 16 = 0 then first1 (iblk1 V c 2 ⟨n + 1, hn⟩) (iblk1 V c 3 ⟨n + 1, hn⟩) (iblk1 V c 0 ⟨n + 1, hn⟩)
    else step1 (acc1 c n (Nat.lt_of_succ_lt hn)) (iblk1 V c 2 ⟨n + 1, hn⟩) (iblk1 V c 3 ⟨n + 1, hn⟩) (iblk1 V c 0 ⟨n + 1, hn⟩)

theorem acc1_first (c : Dev nD) (t : Fin cfg1.N) (h : t.val % 16 = 0) :
    acc1 V c t.val t.isLt = first1 (iblk1 V c 2 t) (iblk1 V c 3 t) (iblk1 V c 0 t) := by
  obtain ⟨n, hn⟩ := t
  cases n with
  | zero => rfl
  | succ n => exact if_pos h

theorem acc1_step (c : Dev nD) (t : Fin cfg1.N) (h : ¬t.val % 16 = 0) :
    acc1 V c t.val t.isLt = step1 (acc1 V c (t.val - 1) (Nat.lt_of_le_of_lt (Nat.sub_le _ _) t.isLt)) (iblk1 V c 2 t) (iblk1 V c 3 t) (iblk1 V c 0 t) := by
  obtain ⟨n, hn⟩ := t
  cases n with
  | zero => exact absurd (Nat.zero_mod _) h
  | succ n => exact if_neg h

/-- The scratch accumulator as a memref. -/
abbrev scM1 : Memref sig .tc .vmem S256x4096 .f32 := Memref.whole cc1_scratch0

/-- The scoped buffers no window of this region stages: the first region's, each at some contents, and the accumulator at `X`. -/
def rest1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ X)

/-- The class invariant with the accumulator named. -/
theorem PhiA1_eq (c : Dev nD) :
    (Pipeline.ΦA spec1 c : sProp 𝕄) = iprop(rest1 c (iprop(∃ d, owns (c : Thread nD τ) scM1 fullShare d)) ∗ (∃ r, prngReg c r)) := by
  unfold Pipeline.ΦA rest1; rw [scopedRest1_eq]; simp only [scM1, owns_whole]; try rfl

/-- The region invariant before position `n`: before the first point every scoped buffer at anything; afterwards the
    accumulator at what the point before left. -/
def PhiS1 (c : Dev nD) : (n : ℕ) → n ≤ cfg1.N → sProp 𝕄
  | 0, _ => Pipeline.ΦA spec1 c
  | n + 1, hn => iprop(rest1 c (owns (c : Thread nD τ) scM1 fullShare (acc1 V c n hn)) ∗ (∃ r, prngReg c r))

theorem PhiS1_succ (c : Dev nD) (n : ℕ) (hn : n < cfg1.N) :
    PhiS1 V c (n + 1) hn = iprop(rest1 c (owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(rest1 c (owns (c : Thread nD τ) scM1 fullShare (acc1 V c (n - 1) (by omega))) ∗ (∃ r, prngReg c r)) := by
  cases n with
  | zero => exact absurd rfl hz
  | succ n => rfl

/-- At any position the invariant holds the accumulator at SOME contents. -/
theorem PhiS1_some (c : Dev nD) (n : ℕ) (h : n ≤ cfg1.N) :
    PhiS1 V c n h ⊢ iprop(rest1 c (iprop(∃ d, owns (c : Thread nD τ) scM1 fullShare d)) ∗ (∃ r, prngReg c r)) := by
  cases n with
  | zero => rw [show PhiS1 V c 0 h = Pipeline.ΦA spec1 c from rfl, PhiA1_eq]
  | succ n =>
    rw [PhiS1_succ]; unfold rest1
    iintro ⟨⟨A1, A2, A3, A4, A5, A6, A7, HS⟩, Hg⟩
    isplitr [Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      iexists _; iexact HS
    iexact Hg

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => fin1 (iblk1 V c 1 t) (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = fin1 (iblk1 V c 1 t) (acc1 V c t.val t.isLt) := by dsimp only [dat1]

end

end Cert.KernelIdeal.Hand

end
-- ==== Proof.R1Body.lean ====
/-
  The three ways one grid point of the second kernel (the weight update  w + c · postᵀ · x,  post = max(y − thr, 0))
  can run, as separation-logic triples over whole staging buffers.  The grid is (output row block, batch block); the
  scratch buffer accumulates the partial products  post_blkᵀ · x_blk  over the batch blocks of one output row block:
    * at the first batch block the scratch is zeroed and then receives  0 + post_blkᵀ · x_blk;
    * at a middle block it receives  scratch + post_blkᵀ · x_blk;
    * at the last block it does the same and the output block receives  w_blk + c · scratch.
  In every case the four inputs are handed back unchanged.
-/
import proofs.«150280_j81003083202674_1_alg».proof.Proof.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Gen

set_option maxHeartbeats 1000000 in
/-- First batch block: whatever the scratch held, it ends at `0 + post_blkᵀ · x_blk`; the output block is untouched. -/
theorem run1_A (c : Dev nD) (i : grid1.Coords) (arg2 : Memref sig .tc .vmem S512x4096 .bf16) (harg2 : arg2.IsWhole) (arg3 : Memref sig .tc .vmem S256x4096 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x4096 .f32) (harg6 : arg6.IsWhole) (arg7 : Memref sig .tc .vmem S256x4096 .f32) (harg7 : arg7.IsWhole)
    (hc0 : cond1_0 i) (hc1 : ¬cond1_1 i)
    (x : Vec F S512x4096 .bf16) (w : Vec F S256x4096 .f32) (y : Vec F S512x256 .f32) (th : Vec F S1x256 .f32) (xi : Vec F S256x4096 .f32) (E : Set ℕ) (K : PUnit → sProp 𝕄) :
    iprop(owns (c : Thread nD τ) arg2 fullShare x ∗ owns (c : Thread nD τ) arg3 fullShare w ∗ owns (c : Thread nD τ) arg4 fullShare y ∗ owns (c : Thread nD τ) arg5 fullShare th ∗ owns (c : Thread nD τ) arg6 fullShare xi ∗ (∃ d, owns (c : Thread nD τ) arg7 fullShare d)
        ∗ (iprop(owns (c : Thread nD τ) arg2 fullShare x ∗ owns (c : Thread nD τ) arg3 fullShare w ∗ owns (c : Thread nD τ) arg4 fullShare y ∗ owns (c : Thread nD τ) arg5 fullShare th ∗ owns (c : Thread nD τ) arg6 fullShare xi ∗ owns (c : Thread nD τ) arg7 fullShare (first1 y th x)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%ds, %fs, -, HS⟩, Hk⟩
  obtain rfl := harg2.eq_unread hf2; obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact HS
  ipureintro
  sl_unfold_words
  rw [View.read_writes_eq_canon _ _ _ (fun y => ⟨_, List.mem_cons_self .., View.mem_set_unit_zero zero2' inb_S256x4096_S256x4096_0_0 y⟩), View.canon_cons_unit_zero zero2']
  simp only [View.readAt_eq_ld, View.readCov_unit_zero (S := S256x4096) _ zero2' inb_S256x4096_S256x4096_0_0, harg7.read_unread, harg2.read_unread, harg3.read_unread, harg4.read_unread, harg5.read_unread, View.ld_unit_zero (S := S256x4096) zero2', View.ld_unit_zero (S := S512x4096) zero2', View.ld_unit_zero (S := S512x256) zero2', View.ld_unit_zero (S := S1x256) zero2']

set_option maxHeartbeats 1000000 in
/-- A middle batch block: the scratch goes from `xs` to `xs + post_blkᵀ · x_blk`; the output block is untouched. -/
theorem run1_B (c : Dev nD) (i : grid1.Coords) (arg2 : Memref sig .tc .vmem S512x4096 .bf16) (harg2 : arg2.IsWhole) (arg3 : Memref sig .tc .vmem S256x4096 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x4096 .f32) (harg6 : arg6.IsWhole) (arg7 : Memref sig .tc .vmem S256x4096 .f32) (harg7 : arg7.IsWhole)
    (hc0 : ¬cond1_0 i) (hc1 : ¬cond1_1 i)
    (x : Vec F S512x4096 .bf16) (w : Vec F S256x4096 .f32) (y : Vec F S512x256 .f32) (th : Vec F S1x256 .f32) (xi : Vec F S256x4096 .f32) (xs : Vec F S256x4096 .f32) (E : Set ℕ) (K : PUnit → sProp 𝕄) :
    iprop(owns (c : Thread nD τ) arg2 fullShare x ∗ owns (c : Thread nD τ) arg3 fullShare w ∗ owns (c : Thread nD τ) arg4 fullShare y ∗ owns (c : Thread nD τ) arg5 fullShare th ∗ owns (c : Thread nD τ) arg6 fullShare xi ∗ owns (c : Thread nD τ) arg7 fullShare xs
        ∗ (iprop(owns (c : Thread nD τ) arg2 fullShare x ∗ owns (c : Thread nD τ) arg3 fullShare w ∗ owns (c : Thread nD τ) arg4 fullShare y ∗ owns (c : Thread nD τ) arg5 fullShare th ∗ owns (c : Thread nD τ) arg6 fullShare xi ∗ owns (c : Thread nD τ) arg7 fullShare (step1 xs y th x)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hfs
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact HS
  ipureintro
  sl_unfold_words
  rw [View.read_writes_eq_canon _ _ _ (fun y => ⟨_, List.mem_cons_self .., View.mem_set_unit_zero zero2' inb_S256x4096_S256x4096_0_0 y⟩), View.canon_cons_unit_zero zero2']
  simp only [View.readAt_eq_ld, View.readCov_unit_zero (S := S256x4096) _ zero2' inb_S256x4096_S256x4096_0_0, harg7.read_unread, harg2.read_unread, harg3.read_unread, harg4.read_unread, harg5.read_unread, View.ld_unit_zero (S := S256x4096) zero2', View.ld_unit_zero (S := S512x4096) zero2', View.ld_unit_zero (S := S512x256) zero2', View.ld_unit_zero (S := S1x256) zero2']

set_option maxHeartbeats 1000000 in
/-- The last batch block: the scratch goes from `xs` to `xs + post_blkᵀ · x_blk`, and the output block receives the
    weight block plus that sum scaled. -/
theorem run1_C (c : Dev nD) (i : grid1.Coords) (arg2 : Memref sig .tc .vmem S512x4096 .bf16) (harg2 : arg2.IsWhole) (arg3 : Memref sig .tc .vmem S256x4096 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x4096 .f32) (harg6 : arg6.IsWhole) (arg7 : Memref sig .tc .vmem S256x4096 .f32) (harg7 : arg7.IsWhole)
    (hc0 : ¬cond1_0 i) (hc1 : cond1_1 i)
    (x : Vec F S512x4096 .bf16) (w : Vec F S256x4096 .f32) (y : Vec F S512x256 .f32) (th : Vec F S1x256 .f32) (xs : Vec F S256x4096 .f32) (E : Set ℕ) (K : PUnit → sProp 𝕄) :
    iprop(owns (c : Thread nD τ) arg2 fullShare x ∗ owns (c : Thread nD τ) arg3 fullShare w ∗ owns (c : Thread nD τ) arg4 fullShare y ∗ owns (c : Thread nD τ) arg5 fullShare th ∗ (∃ d, owns (c : Thread nD τ) arg6 fullShare d) ∗ owns (c : Thread nD τ) arg7 fullShare xs
        ∗ (iprop(owns (c : Thread nD τ) arg2 fullShare x ∗ owns (c : Thread nD τ) arg3 fullShare w ∗ owns (c : Thread nD τ) arg4 fullShare y ∗ owns (c : Thread nD τ) arg5 fullShare th ∗ owns (c : Thread nD τ) arg6 fullShare (fin1 w (step1 xs y th x)) ∗ owns (c : Thread nD τ) arg7 fullShare (step1 xs y th x)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf2; obtain rfl := harg3.eq_unread hf3; obtain rfl := harg4.eq_unread hf4; obtain rfl := harg5.eq_unread hf5; obtain rfl := harg7.eq_unread hfs
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [View.read_writes_eq_canon _ _ _ (fun y => ⟨_, List.mem_cons_self .., View.mem_set_unit_zero zero2' inb_S256x4096_S256x4096_0_0 y⟩), View.canon_cons_unit_zero zero2']
    simp only [View.readAt_eq_ld, View.readCov_unit_zero (S := S256x4096) _ zero2' inb_S256x4096_S256x4096_0_0, harg7.read_unread, harg2.read_unread, harg3.read_unread, harg4.read_unread, harg5.read_unread, View.ld_unit_zero (S := S256x4096) zero2', View.ld_unit_zero (S := S512x4096) zero2', View.ld_unit_zero (S := S512x256) zero2', View.ld_unit_zero (S := S1x256) zero2']
  iexists _; isplitr
  swap; · iexact HS
  ipureintro
  sl_unfold_words
  rw [View.read_writes_eq_canon _ _ _ (fun y => ⟨_, List.mem_cons_self .., View.mem_set_unit_zero zero2' inb_S256x4096_S256x4096_0_0 y⟩), View.canon_cons_unit_zero zero2']
  simp only [View.readAt_eq_ld, View.readCov_unit_zero (S := S256x4096) _ zero2' inb_S256x4096_S256x4096_0_0, harg7.read_unread, harg2.read_unread, harg3.read_unread, harg4.read_unread, harg5.read_unread, View.ld_unit_zero (S := S256x4096) zero2', View.ld_unit_zero (S := S512x4096) zero2', View.ld_unit_zero (S := S512x256) zero2', View.ld_unit_zero (S := S1x256) zero2']

end Cert.KernelIdeal.Hand

end
-- ==== Proof.R1Oblig.lean ====
/-
  The body obligation of the second kernel region: at every grid point the kernel body, handed the region
  invariant and every window's current staging buffer, runs and hands back the invariant at the next point and the
  buffers at what the proof data say.  The point's residue mod 16 selects which of the three runs of the body applies:
  residue 0 restarts the accumulator, residue 15 also fills the output block, the others only accumulate.
-/
import proofs.«150280_j81003083202674_1_alg».proof.Proof.R1Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Gen

section
variable (V : (c : Dev nD) → (b : Ref sig .tc) → Buf (Elt F) ((c : Thread nD τ).loc b))

/-- An input window's current staging buffer holds its block of the array at every point, fetched there or not
    (the weight and threshold windows are fetched only when the output row block changes). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  have hN : t.val < 256 := lt_of_lt_of_eq t.isLt N1
  rw [PhiS1_castSucc V c t]
  by_cases h0 : t.val % 16 = 0
  · -- the accumulator restarts
    have h1 : ¬t.val % 16 = 15 := by omega
    have hc1 : ¬cond1_1 (grid1.coords t) := fun h => h1 ((hcond1_1 t).mp h)
    rw [Dat.leavesExact_idle (dat1 V c) 4 t (idleAt1_4 t hc1) (noFlush1_4 t hc1)]
    rw [acc1_first V c t h0]
    refine (BIClass.sep_mono (PhiS1_some V c _ _) (BI.Entails.refl _)).trans ?_
    unfold rest1
    iintro ⟨⟨⟨A1, A2, A3, A4, A5, A6, A7, HS⟩, Hg⟩, Ho, ⟨%d0, H0⟩, ⟨%d1, H1⟩, ⟨%d2, H2⟩, ⟨%d3, H3⟩, ⟨%d4, H4⟩⟩
    iapply (run1_A c (grid1.coords t) _ _ _ _ _ _ _ _ _ _ _ _ ((hcond1_0 t).mpr h0) hc1 (iblk1 V c 0 t) (iblk1 V c 1 t) (iblk1 V c 2 t) (iblk1 V c 3 t) _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [A1 A2 A3 A4 A5 A6 A7 HS Hg]
    · isplitr [Hg]
      · isplitl [A1]; · iexact A1
        isplitl [A2]; · iexact A2
        isplitl [A3]; · iexact A3
        isplitl [A4]; · iexact A4
        isplitl [A5]; · iexact A5
        isplitl [A6]; · iexact A6
        isplitl [A7]; · iexact A7
        iexact HS
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [PhiS1_pos V c _ _ hz, acc1_step V c t h0]
    by_cases h1 : t.val % 16 = 15
    · -- the last batch block: the output block is filled
      have hc1 : cond1_1 (grid1.coords t) := (hcond1_1 t).mpr h1
      rw [show (dat1 V c).leavesExact 4 t = owns (c : Thread nD τ) (st1_4 t) fullShare ((dat1 V c).after 4 t) from by
        unfold Dat.leavesExact; rw [liveAt1_4 t hc1], after1_4, acc1_step V c t h0]
      unfold rest1
      iintro ⟨⟨⟨A1, A2, A3, A4, A5, A6, A7, HS⟩, Hg⟩, Ho, ⟨%d0, H0⟩, ⟨%d1, H1⟩, ⟨%d2, H2⟩, ⟨%d3, H3⟩, ⟨%d4, H4⟩⟩
      iapply (run1_C c (grid1.coords t) _ _ _ _ _ _ _ _ _ _ _ _ (fun h => h0 ((hcond1_0 t).mp h)) hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [A1 A2 A3 A4 A5 A6 A7 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          iexact HS
        iexact Hg
      isplitl [Ho]; · iexact Ho
      isplitl [H0]; · iexact H0
      isplitl [H1]; · iexact H1
      isplitl [H2]; · iexact H2
      isplitl [H3]; · iexact H3
      iexact H4
    · -- a middle batch block
      have hc1 : ¬cond1_1 (grid1.coords t) := fun h => h1 ((hcond1_1 t).mp h)
      rw [Dat.leavesExact_idle (dat1 V c) 4 t (idleAt1_4 t hc1) (noFlush1_4 t hc1)]
      unfold rest1
      iintro ⟨⟨⟨A1, A2, A3, A4, A5, A6, A7, HS⟩, Hg⟩, Ho, ⟨%d0, H0⟩, ⟨%d1, H1⟩, ⟨%d2, H2⟩, ⟨%d3, H3⟩, ⟨%d4, H4⟩⟩
      iapply (run1_B c (grid1.coords t) _ _ _ _ _ _ _ _ _ _ _ _ (fun h => h0 ((hcond1_0 t).mp h)) hc1 (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [A1 A2 A3 A4 A5 A6 A7 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's: every scoped buffer of the rest at anything. -/
theorem Phi1_first (c : Dev nD) : (dat1 V c).Φ 0 = Pipeline.ΦA spec1 c := rfl

/-- After the last point it gives that back: the accumulator's contents are forgotten. -/
theorem Phi1_last (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_some V c _ _

end

end Cert.KernelIdeal.Hand

end
-- ==== Proof.Run.lean ====
/-
  The whole run of the program, from the launch to the return, at any float instance.
  The program is: two casts of the inputs to the narrow float format, the first kernel region (x · wᵀ), twelve
  host operations computing the new threshold from that product, and the second kernel region (the weight update).
  The contents of every buffer at each of the five boundaries between these pieces are a fold from the launch
  memory: a host stretch applies its operations; a kernel region replaces its windows' arrays by what its
  write-backs leave (the inputs unchanged, the output assembled block by block) and leaves every other buffer alone.
  The run ends with every unscoped buffer at the last boundary's contents; in particular no piece writes an argument.
-/
import proofs.«150280_j81003083202674_1_alg».proof.Proof.R0Oblig
import proofs.«150280_j81003083202674_1_alg».proof.Proof.R1Oblig
import proofs.«150280_j81003083202674_1_alg».proof.Proof.Gen.KernelIdeal.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Gen

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the two casts (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the threshold's host operations (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What each piece leaves alone -/

/-- The casts write only their two results. -/
theorem W1_of (c : Dev nD) (r : Ref sig .tc) (h : r ∉ hostOps0_W) : W1 m ρ c r = W0 m ρ c r :=
  StableHlo.after_of_writes_sub hostOps0 _ hostOps0_writes h
/-- The threshold's operations write only their twelve results. -/
theorem W3_of (c : Dev nD) (r : Ref sig .tc) (h : r ∉ hostOps1_W) : W3 m ρ c r = W2 m ρ c r :=
  StableHlo.after_of_writes_sub hostOps1 _ hostOps1_writes h
/-- An input window's array leaves the first region as it entered, -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- and the second. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- No piece writes an argument. -/
theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    (W2_of_ne m ρ c main_arg0 (by decide)).trans <| (W1_of m ρ c main_arg0 (by decide)).trans rfl
theorem W4_main_arg1 (c : Dev nD) : W4 m ρ c (Proc.devRef .tc main_arg1) = m ((c : Thread nD τ).loc main_arg1) :=
  (W4_in m ρ c 1 rfl).trans <| (W3_of m ρ c main_arg1 (by decide)).trans <|
    (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans <| (W1_of m ρ c main_arg2 (by decide)).trans rfl

/-! ## The proof data family and the thread state -/

abbrev adm' : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every piece: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as pieces of the run -/

set_option backward.isDefEq.respectTransparency.types false in
/-- The first region: entered from every unscoped buffer at `W1`, left at `W2`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (pdats m ρ 0 c).Φ (Fin.last _) ⊢ (Pipeline.ΦA spec0 c : sProp 𝕄) := Phi0_last (V1 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W3`, left at `W4`. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (pdats m ρ 1 c).Φ (Fin.last _) ⊢ (Pipeline.ΦA spec1 c : sProp 𝕄) := Phi1_last (V3 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four pieces, and the launch -/

abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- In particular the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_main m ρ)

end Cert.KernelIdeal.Hand

end
-- ==== Proof.Spec.lean ====
/-
  The mathematics both programs compute, over the extended reals, for a batch of 8192 rows of 4096 features and a
  4096 × 4096 weight matrix:
    * the layer's output          out(b, o)  = ∑ₖ x(b, k) · w(o, k)                     (x · wᵀ);
    * the Hebbian correlation     hebb(o, i) = ∑_b max(y(b, o) − thr(o), 0) · x(b, i)   (the rectified, thresholded output against the input);
    * the updated weights         w(o, i) + c · hebb(o, i)   with the fixed single-precision step size c.
  The threshold enters as a one-row matrix; `row` turns a vector into that row.
-/
import Idealize.ShloMosaic.PureOps.Ideal
import Idealize.ShloMosaic.Lib.ValueIdx

noncomputable section

open scoped BigOperators

namespace Cert.Spec

open Idealize.ShloMosaic Idealize.ShloMosaic.ValueIdx

/-- batch × features -/
abbrev SB : Shape := ⟨2, ![8192, 4096]⟩
/-- outputs × features -/
abbrev SW : Shape := ⟨2, ![4096, 4096]⟩
/-- one value per output -/
abbrev SV : Shape := ⟨1, ![4096]⟩
/-- the same as a one-row matrix -/
abbrev SR : Shape := ⟨2, ![1, 4096]⟩

/-- Entry (b, o) of x · wᵀ. -/
def outAt (x : SB.Idx → EReal) (w : SW.Idx → EReal) (b : Fin 8192) (o : Fin 4096) : EReal :=
  ∑ k : Fin 4096, x (ix2 b k) * w (ix2 o k)

/-- x · wᵀ. -/
def out (x : SB.Idx → EReal) (w : SW.Idx → EReal) : SB.Idx → EReal := fun i => outAt x w (i 0) (i 1)

/-- Entry (o, i) of the Hebbian correlation of the rectified thresholded output with the input. -/
def hebbAt (y : SB.Idx → EReal) (thr : SR.Idx → EReal) (x : SB.Idx → EReal) (o i : Fin 4096) : EReal :=
  ∑ b : Fin 8192, max (y (ix2 b o) - thr (ix2 0 o)) (Ideal.ofBits .f32 0x00000000#32) * x (ix2 b i)

/-- The updated weights. -/
def neww (w : SW.Idx → EReal) (y : SB.Idx → EReal) (thr : SR.Idx → EReal) (x : SB.Idx → EReal) : SW.Idx → EReal :=
  fun j => w j + Ideal.ofBits .f32 0x3403126F#32 * hebbAt y thr x (j 0) (j 1)

/-- A vector as a one-row matrix. -/
def row (v : SV.Idx → EReal) : SR.Idx → EReal := fun j => v (ix1 (j 1))

end Cert.Spec

end
-- ==== Proof.LibDotNT.lean ====
/-
  A product of a matrix with a transposed matrix, read at an entry as the textbook sum.

  A product of an `M × K` matrix `A` by an `N × K` matrix `B` whose dimension numbers contract the LAST axis of both
  operands, keep the left rows and the right rows in that order, and have no batch axis: the product `A · Bᵀ`. At
  result entry `(i, j)` and contraction position `k` the left operand is read at `(i, k)` and the right at `(j, k)`,
  and the one-axis contraction index set is its coordinate range `Fin K`; so the sum over the contraction index is
  `∑ q : Fin K, A (i, q) * B (j, q)`. Stated for ANY dimension-number record with those lists and for operands of any
  two float formats, at the extended reals, for the accumulating block product into a zero accumulator and for the
  host's product. Nothing here depends on a particular program.
-/
import Idealize.ShloMosaic.PureOps.Ideal
import Idealize.ShloMosaic.PureOps.Ideal.Laws
import Idealize.ShloMosaic.Lib.ValueIdx

noncomputable section

open scoped BigOperators

namespace Cert.LibDotNT

open Idealize.ShloMosaic Idealize.ShloMosaic.ValueIdx

variable {M K N : Nat} (d : DotDims (⟨2, ![M, K]⟩ : Shape) (⟨2, ![N, K]⟩ : Shape) (⟨2, ![M, N]⟩ : Shape))
  (hlc : d.lhsContracting = [1]) (hrc : d.rhsContracting = [1]) (hln : d.lhsNonContracting = [0])
  (hrn : d.rhsNonContracting = [0]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent `K`, the number of columns of both operands. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's row is the result's column. -/
theorem rhs_row (i : Fin M) (j : Fin N) (k : d.contr.Idx) : (d.rhsIdx (ix2 i j) k 0).val = j.val := by
  obtain ⟨lc, rc, ln, rn, lb, rb, wf⟩ := d
  subst hlc hrc hln hrn hlb hrb
  rfl

/-- THE CONTRACTION'S SUM OF `A · Bᵀ` at entry `(i, j)`: at contraction position `k` with coordinate `q` the left
    operand is read at `(i, q)` and the right at `(j, q)`, and the positions correspond one to one to the coordinates
    `q : Fin K`, so the sum is re-indexed by them. -/
theorem nt_sum (l : (⟨2, ![M, K]⟩ : Shape).Idx → EReal) (r : (⟨2, ![N, K]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 j q) := by
  have h1 := contr_rank d hlc hrc hln hrn hlb hrb
  have hK := contr_size d hlc hrc hln hrn hlb hrb (by omega)
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 j (contrEquiv1 d K h1 hK k) := by
    intro k
    funext a
    refine Fin.ext ?_
    match a with
    | ⟨0, _⟩ => exact rhs_row d hlc hrc hln hrn hlb hrb i j k
    | ⟨1, _⟩ => exact d.rhsIdx_val_of_single hrc (ix2 i j) k
  calc (∑ k : d.contr.Idx, l (d.lhsIdx (ix2 i j) k) * r (d.rhsIdx (ix2 i j) k))
      = ∑ k : d.contr.Idx, (fun q : Fin K => l (ix2 i q) * r (ix2 j q)) (contrEquiv1 d K h1 hK k) :=
        Finset.sum_congr rfl fun k _ => by rw [hl k, hr k]
    _ = ∑ q : Fin K, l (ix2 i q) * r (ix2 j q) :=
        Equiv.sum_comp (contrEquiv1 d K h1 hK) fun q : Fin K => l (ix2 i q) * r (ix2 j q)

/-- A block product `A · Bᵀ` into the zero accumulator, read at `(i, j)`, is that sum. -/
theorem matmul_zero_apply {φ₁ φ₂ : FTy} (prec : Option ContractPrecision) (l : FVec Ideal (⟨2, ![M, K]⟩ : Shape) φ₁)
    (r : FVec Ideal (⟨2, ![N, K]⟩ : Shape) φ₂) (i : Fin M) (j : Fin N) :
    matmul d prec l r (constant (⟨2, ![M, N]⟩ : Shape) .f32 0x00000000#32) (ix2 i j)
      = ∑ q : Fin K, l (ix2 i q) * r (ix2 j q) := by
  show FloatOps.matmul d prec l r (constant (⟨2, ![M, N]⟩ : Shape) .f32 0x00000000#32) (ix2 i j) = _
  rw [Ideal.matmul_constant_zero_apply]
  exact nt_sum d hlc hrc hln hrn hlb hrb l r i j

/-- The host's product `A · Bᵀ`, read at `(i, j)`, is that sum. -/
theorem hostDot_apply {φ₁ φ₂ : FTy} (prec : Option ContractPrecision) (l : FVec Ideal (⟨2, ![M, K]⟩ : Shape) φ₁)
    (r : FVec Ideal (⟨2, ![N, K]⟩ : Shape) φ₂) (i : Fin M) (j : Fin N) :
    Host.dotGeneral d prec l r (ix2 i j) = ∑ q : Fin K, l (ix2 i q) * r (ix2 j q) := by
  simp only [Host.dotGeneral]
  rw [Ideal.dotGeneral_apply]
  exact nt_sum d hlc hrc hln hrn hlb hrb l r i j

end Cert.LibDotNT

end
-- ==== Proof.LibTileSum.lean ====
/-
  A sum over `Fin N` with `N = T * B` cut into `T` consecutive tiles of `B` terms, in any commutative
  additive monoid (the extended reals among them: only commutativity and associativity of `+` are used, so no
  finiteness is asked of the terms), and the running sum of the tiles' partial sums in tile order.

  The index of term `j` of tile `t` is written `(B * t + j) % N`: a total function of the natural number `t`,
  equal to `B * t + j` for every tile `t < T`, which is what lets the running sum be stated over `Finset.range`
  with no proof terms inside the summand.
-/
import Mathlib.Algebra.BigOperators.Fin
import Mathlib.Algebra.BigOperators.Intervals

namespace TileSum

open Finset

/-- Term `j` of tile `t` among `N` terms cut into tiles of `B`: position `B * t + j`, wrapped into range. -/
def tileIdx (B N : ℕ) (hN : 0 < N) (t : ℕ) (j : Fin B) : Fin N := ⟨(B * t + j.val) % N, Nat.mod_lt _ hN⟩

theorem tileIdx_val {B N : ℕ} (hN : 0 < N) {T : ℕ} (hTB : N = T * B) {t : ℕ} (ht : t < T) (j : Fin B) :
    (tileIdx B N hN t j).val = B * t + j.val := by
  unfold tileIdx
  apply Nat.mod_eq_of_lt
  have hj := j.isLt
  calc B * t + j.val < B * t + B := by omega
    _ = B * (t + 1) := (Nat.mul_succ B t).symm
    _ ≤ B * T := Nat.mul_le_mul_left _ ht
    _ = N := by rw [hTB, Nat.mul_comm]

/-- A sum over the first `T * B` naturals is the sum over `T` tiles of the sums over each tile's `B` terms. -/
theorem sum_range_mul {M : Type*} [AddCommMonoid M] (B : ℕ) (g : ℕ → M) :
    ∀ T : ℕ, ∑ i ∈ range (T * B), g i = ∑ t ∈ range T, ∑ j ∈ range B, g (B * t + j)
  | 0 => by simp
  | T + 1 => by
    rw [Nat.succ_mul, sum_range_add, sum_range_succ, sum_range_mul B g T, Nat.mul_comm T B]

/-- The sum over `Fin N`, `N = T * B`, tile by tile. -/
theorem sum_tiles {M : Type*} [AddCommMonoid M] (T B N : ℕ) (hTB : N = T * B) (hN : 0 < N) (f : Fin N → M) :
    ∑ i, f i = ∑ t ∈ range T, ∑ j : Fin B, f (tileIdx B N hN t j) := by
  have h1 : ∑ i, f i = ∑ i : Fin N, (fun n : ℕ => f ⟨n % N, Nat.mod_lt _ hN⟩) i.val :=
    Finset.sum_congr rfl fun i _ => congrArg f (Fin.ext (Nat.mod_eq_of_lt i.isLt).symm)
  rw [h1, Fin.sum_univ_eq_sum_range (fun n : ℕ => f ⟨n % N, Nat.mod_lt _ hN⟩) N]
  subst hTB
  rw [sum_range_mul B _ T]
  refine Finset.sum_congr rfl fun t _ => ?_
  rw [← Fin.sum_univ_eq_sum_range (fun j : ℕ => f ⟨(B * t + j) % (T * B), Nat.mod_lt _ hN⟩) B]
  rfl

/-- The running sum in tile order, started from a stored zero: `(0 + p 0) + p 1 + … + p n` is `∑ t ≤ n, p t`. -/
def running {M : Type*} [AddCommMonoid M] (p : ℕ → M) : ℕ → M
  | 0 => 0 + p 0
  | n + 1 => running p n + p (n + 1)

theorem running_zero {M : Type*} [AddCommMonoid M] (p : ℕ → M) : running p 0 = 0 + p 0 := rfl

theorem running_succ {M : Type*} [AddCommMonoid M] (p : ℕ → M) (n : ℕ) : running p (n + 1) = running p n + p (n + 1) := rfl

theorem running_eq_sum {M : Type*} [AddCommMonoid M] (p : ℕ → M) : ∀ n, running p n = ∑ t ∈ range (n + 1), p t
  | 0 => by simp [running]
  | n + 1 => by rw [running, running_eq_sum p n, sum_range_succ _ (n + 1)]

end TileSum
-- ==== Proof.Val0.lean ====
/-
  The value of the first kernel region at the extended reals: the array its output window leaves is x · wᵀ.

  The grid is 8 × 4 × 8: row block i of 1024 rows of x, column block j of 1024 rows of w, contraction block k of 512
  positions, k running fastest, so point t has i = t / 32, j = (t / 8) mod 4, k = t mod 8. At a point the scratch
  accumulator gains, at (p, q), the sum over the 512 contraction positions l of x(1024·i + p, 512·k + l) ·
  w(1024·j + q, 512·k + l); it restarts from a stored zero at k = 0. So after the point with contraction block k it
  holds (…((0 + s₀) + s₁) + …) + s_k, the running sum of the tiles' shares of one entry of x · wᵀ, and after k = 7
  that is the sum over all 4096 contraction positions, cut into 8 tiles of 512: the entry itself. Sums over the
  extended reals only re-associate here (a commutative additive monoid), so nothing is asked of the terms.
  The 32 blocks written back at the points with k = 7 tile the 8192 × 4096 array.
-/
import proofs.«150280_j81003083202674_1_alg».proof.Proof.R0Defs
import proofs.«150280_j81003083202674_1_alg».proof.Proof.Spec
import proofs.«150280_j81003083202674_1_alg».proof.Proof.LibDotNT
import proofs.«150280_j81003083202674_1_alg».proof.Proof.LibTileSum
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal.Gen
open TileSum

namespace Val0

/-- Entry (p, q) of the product of a 1024 × 512 block with the transpose of another: the sum over the 512 contraction positions. -/
def blkProd (x0 x1 : Vec Ideal S1024x512 .bf16) (p q : Fin 1024) : EReal := ∑ l : Fin 512, x0 (ix2 p l) * x1 (ix2 q l)

/-- One accumulation step read at an entry: what was there plus the block product's entry. -/
theorem step0_apply (acc : Vec Ideal S1024x1024 .f32) (x0 x1 : Vec Ideal S1024x512 .bf16) (p q : Fin 1024) :
    step0 (F := Ideal) acc x0 x1 (ix2 p q) = acc (ix2 p q) + blkProd x0 x1 p q := by
  show k0_pay2 (F := Ideal) acc x0 x1 (ix2 p q) = _
  unfold k0_pay2 blkProd
  simp only [shapeCast_self]
  rw [addf_apply]
  congr 1
  exact Cert.LibDotNT.matmul_zero_apply dot_S1024x512_S1024x512_S1024x1024_1_1_0_0_n_n rfl rfl rfl rfl rfl rfl none x0 x1 p q

/-- The first step read at an entry: the stored zero plus the block product's entry. -/
theorem first0_apply (x0 x1 : Vec Ideal S1024x512 .bf16) (p q : Fin 1024) :
    first0 (F := Ideal) x0 x1 (ix2 p q) = 0 + blkProd x0 x1 p q := by
  refine (step0_apply _ x0 x1 p q).trans ?_
  congr 1
  show k0_pay1 (F := Ideal) (ix2 p q) = 0
  unfold k0_pay1
  simp only [shapeCast_self]
  exact Ideal.ofBits_zero_f32

/-- The block index maps over the 256 points: point t has row block t / 32, column block (t / 8) mod 4 and contraction block t mod 8. -/
theorem idx_facts0 : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 32 ∧ win0_2.index t (1 : Fin 2) = t.val / 8 % 4 :=
  (by decide +kernel : ∀ t : Fin grid0.N, _)

/-- Row `p` of the row block of point `n`, as a row of the whole batch. -/
def rowOf (n : ℕ) (p : Fin 1024) : Fin 8192 := ⟨1024 * (n / 32 % 8) + p.val, by have := p.isLt; omega⟩
/-- Row `q` of the column block of point `n`, as an output feature. -/
def colOf (n : ℕ) (q : Fin 1024) : Fin 4096 := ⟨1024 * (n / 8 % 4) + q.val, by have := q.isLt; omega⟩

theorem pos4096 : 0 < 4096 := by decide

/-- Contraction tile `k`'s share of entry (b, o) of x · wᵀ: the sum over the tile's 512 positions. -/
def part (x : Cert.Spec.SB.Idx → EReal) (w : Cert.Spec.SW.Idx → EReal) (b : Fin 8192) (o : Fin 4096) (k : ℕ) : EReal :=
  ∑ l : Fin 512, x (ix2 b (tileIdx 512 4096 pos4096 k l)) * w (ix2 o (tileIdx 512 4096 pos4096 k l))

section
variable (V : (c : Dev nD) → (b : Ref sig .tc) → Buf (Elt Ideal) ((c : Thread nD τ).loc b))

/-- The two input arrays as the region finds them. -/
abbrev X0 (c : Dev nD) : Cert.Spec.SB.Idx → EReal := V c main_v0
abbrev W0 (c : Dev nD) : Cert.Spec.SW.Idx → EReal := V c main_v1

/-- The x block of point `t` at (p, l) is x at row 1024·(t/32) + p and contraction position 512·(t mod 8) + l. -/
theorem xblk_apply (c : Dev nD) (t : Fin cfg0.N) (p : Fin 1024) (l : Fin 512) :
    (iblk0 (F := Ideal) V c 0 t : Vec Ideal S1024x512 .bf16) (ix2 p l)
      = X0 V c (ix2 (rowOf t.val p) (tileIdx 512 4096 pos4096 (t.val % 8) l)) := by
  obtain ⟨e0, e1, -, -, -, -⟩ := idx_facts0 t
  have hN : t.val < 256 := Nat.lt_of_lt_of_eq t.isLt N0
  have hl := l.isLt
  have hp := p.isLt
  have hv := tileIdx_val pos4096 (T := 8) (B := 512) rfl (t := t.val % 8) (by omega) l
  unfold iblk0
  rw [View.read_apply]
  show V c main_v0 _ = V c main_v0 _
  congr 1
  funext a
  apply Fin.ext
  match a with
  | ⟨0, _⟩ => show win0_0.index t (0 : Fin 2) * 1024 + 1 * p.val = 1024 * (t.val / 32 % 8) + p.val; rw [e0]; omega
  | ⟨1, _⟩ => show win0_0.index t (1 : Fin 2) * 512 + 1 * l.val = (tileIdx 512 4096 pos4096 (t.val % 8) l).val; rw [e1, hv]; omega

/-- The w block of point `t` at (q, l) is w at row 1024·((t/8) mod 4) + q and contraction position 512·(t mod 8) + l. -/
theorem wblk_apply (c : Dev nD) (t : Fin cfg0.N) (q : Fin 1024) (l : Fin 512) :
    (iblk0 (F := Ideal) V c 1 t : Vec Ideal S1024x512 .bf16) (ix2 q l)
      = W0 V c (ix2 (colOf t.val q) (tileIdx 512 4096 pos4096 (t.val % 8) l)) := by
  obtain ⟨-, -, e0, e1, -, -⟩ := idx_facts0 t
  have hN : t.val < 256 := Nat.lt_of_lt_of_eq t.isLt N0
  have hl := l.isLt
  have hq := q.isLt
  have hv := tileIdx_val pos4096 (T := 8) (B := 512) rfl (t := t.val % 8) (by omega) l
  unfold iblk0
  rw [View.read_apply]
  show V c main_v1 _ = V c main_v1 _
  congr 1
  funext a
  apply Fin.ext
  match a with
  | ⟨0, _⟩ => show win0_1.index t (0 : Fin 2) * 1024 + 1 * q.val = 1024 * (t.val / 8 % 4) + q.val; rw [e0]; omega
  | ⟨1, _⟩ => show win0_1.index t (1 : Fin 2) * 512 + 1 * l.val = (tileIdx 512 4096 pos4096 (t.val % 8) l).val; rw [e1, hv]; omega

/-- The block product of point `t` at (p, q) is contraction tile t mod 8's share of the entry of x · wᵀ that (p, q) is in. -/
theorem prod_eq_part (c : Dev nD) (t : Fin cfg0.N) (p q : Fin 1024) :
    blkProd (iblk0 (F := Ideal) V c 0 t) (iblk0 (F := Ideal) V c 1 t) p q
      = part (X0 V c) (W0 V c) (rowOf t.val p) (colOf t.val q) (t.val % 8) := by
  unfold part blkProd
  refine Finset.sum_congr rfl fun l _ => ?_
  rw [xblk_apply, wblk_apply]

end

/-- The eight tiles' shares, added left to right from a stored zero, are the entry of x · wᵀ. -/
theorem running_part (x : Cert.Spec.SB.Idx → EReal) (w : Cert.Spec.SW.Idx → EReal) (b : Fin 8192) (o : Fin 4096) :
    running (part x w b o) 7 = Cert.Spec.outAt x w b o := by
  rw [running_eq_sum]
  unfold Cert.Spec.outAt part
  exact (sum_tiles 8 512 4096 rfl pos4096 (fun k => x (ix2 b k) * w (ix2 o k))).symm

section
variable (V : (c : Dev nD) → (b : Ref sig .tc) → Buf (Elt Ideal) ((c : Thread nD τ).loc b))

/-- THE ACCUMULATOR after point `n`, at (p, q): the running sum, from a stored zero, of the shares of contraction tiles
    0 … n mod 8 of the entry of x · wᵀ at row 1024·(n/32) + p and column 1024·((n/8) mod 4) + q. By induction on the
    point: a point with n mod 8 = 0 restarts from zero; any other keeps the row and column blocks of the point before
    and adds the next tile's share. -/
theorem acc0_eq (c : Dev nD) : ∀ (n : ℕ) (hn : n < cfg0.N) (p q : Fin 1024),
    acc0 (F := Ideal) V c n hn (ix2 p q) = running (part (X0 V c) (W0 V c) (rowOf n p) (colOf n q)) (n % 8)
  | 0, hn, p, q => by
    show first0 (F := Ideal) (iblk0 V c 0 ⟨0, hn⟩) (iblk0 V c 1 ⟨0, hn⟩) (ix2 p q) = _
    refine (first0_apply _ _ p q).trans ?_
    refine (congrArg (0 + ·) (prod_eq_part V c ⟨0, hn⟩ p q)).trans ?_
    rfl
  | n + 1, hn, p, q => by
    have hN : n + 1 < 256 := Nat.lt_of_lt_of_eq hn N0
    by_cases h : (n + 1) % 8 = 0
    · refine (congrFun (acc0_first V c ⟨n + 1, hn⟩ h) (ix2 p q)).trans ?_
      refine (first0_apply _ _ p q).trans ?_
      refine (congrArg (0 + ·) (prod_eq_part V c ⟨n + 1, hn⟩ p q)).trans ?_
      show 0 + part (X0 V c) (W0 V c) (rowOf (n + 1) p) (colOf (n + 1) q) ((n + 1) % 8)
        = running (part (X0 V c) (W0 V c) (rowOf (n + 1) p) (colOf (n + 1) q)) ((n + 1) % 8)
      rw [h]
      rfl
    · refine (congrFun (acc0_step V c ⟨n + 1, hn⟩ h) (ix2 p q)).trans ?_
      refine (step0_apply _ _ _ p q).trans ?_
      refine (congrArg (_ + ·) (prod_eq_part V c ⟨n + 1, hn⟩ p q)).trans ?_
      show acc0 (F := Ideal) V c n (Nat.lt_of_succ_lt hn) (ix2 p q) + part (X0 V c) (W0 V c) (rowOf (n + 1) p) (colOf (n + 1) q) ((n + 1) % 8)
        = running (part (X0 V c) (W0 V c) (rowOf (n + 1) p) (colOf (n + 1) q)) ((n + 1) % 8)
      rw [acc0_eq c n (Nat.lt_of_succ_lt hn) p q]
      have hp := p.isLt
      have hq := q.isLt
      have hr : rowOf (n + 1) p = rowOf n p := Fin.ext (by show 1024 * ((n + 1) / 32 % 8) + p.val = 1024 * (n / 32 % 8) + p.val; omega)
      have hc : colOf (n + 1) q = colOf n q := Fin.ext (by show 1024 * ((n + 1) / 8 % 4) + q.val = 1024 * (n / 8 % 4) + q.val; omega)
      have hk : (n + 1) % 8 = n % 8 + 1 := by omega
      rw [hr, hc, hk]
      rfl

/-- At a point that ends a contraction sweep the accumulator holds the entries of x · wᵀ of its row and column blocks. -/
theorem acc0_last (c : Dev nD) (t : Fin cfg0.N) (h7 : t.val % 8 = 7) (p q : Fin 1024) :
    acc0 (F := Ideal) V c t.val t.isLt (ix2 p q) = Cert.Spec.outAt (X0 V c) (W0 V c) (rowOf t.val p) (colOf t.val q) := by
  rw [acc0_eq V c t.val t.isLt p q, h7, running_part]

/-- WHAT A POINT WRITES BACK is its block of x · wᵀ. -/
theorem flushed0_eq (c : Dev nD) (t : Fin cfg0.N) (hf : (cfg0.win 2).flush t = true) :
    (dat0 (F := Ideal) V c).flushed 2 t
      = ((cfg0.win 2).blk t).view.read (Elt Ideal) (Cert.Spec.out (X0 V c) (W0 V c)) := by
  have h7 : t.val % 8 = 7 := (flush0_2 t).mp hf
  obtain ⟨-, -, -, -, e0, e1⟩ := idx_facts0 t
  have hN : t.val < 256 := Nat.lt_of_lt_of_eq t.isLt N0
  show (cfg0.win 2).cut (grid0.coords t) ((dat0 (F := Ideal) V c).after 2 t) = _
  rw [after0_2]
  funext j
  have hj0 : (j 0).val < 1024 := (j 0).isLt
  have hj1 : (j 1).val < 1024 := (j 1).isLt
  have hx : (cfg0.win 2).xinj (grid0.coords t) j = ix2 (⟨(j 0).val, hj0⟩ : Fin 1024) (⟨(j 1).val, hj1⟩ : Fin 1024) := by
    funext a
    match a with
    | ⟨0, _⟩ => rfl
    | ⟨1, _⟩ => rfl
  show acc0 (F := Ideal) V c t.val t.isLt ((cfg0.win 2).xinj (grid0.coords t) j)
    = Cert.Spec.outAt (X0 V c) (W0 V c) ((((cfg0.win 2).blk t).view.emb j) 0) ((((cfg0.win 2).blk t).view.emb j) 1)
  rw [hx, acc0_last V c t h7]
  have hr : (((cfg0.win 2).blk t).view.emb j) 0 = rowOf t.val ⟨(j 0).val, hj0⟩ := Fin.ext (by
    show win0_2.index t (0 : Fin 2) * 1024 + 1 * (j 0).val = 1024 * (t.val / 32 % 8) + (j 0).val
    rw [e0]; omega)
  have hc : (((cfg0.win 2).blk t).view.emb j) 1 = colOf t.val ⟨(j 1).val, hj1⟩ := Fin.ext (by
    show win0_2.index t (1 : Fin 2) * 1024 + 1 * (j 1).val = 1024 * (t.val / 8 % 4) + (j 1).val
    rw [e1]; omega)
  rw [hr, hc]

/-- The 8 × 4 blocks written back tile the array: entry (r, s) is in the block of row block r / 1024 and column block s / 1024. -/
theorem cover0 (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  have hlt : 32 * ((i 0).val / 1024) + 8 * ((i 1).val / 1024) + 7 < cfg0.N := by rw [N0]; omega
  obtain ⟨-, -, -, -, e0, e1⟩ := idx_facts0 ⟨32 * ((i 0).val / 1024) + 8 * ((i 1).val / 1024) + 7, hlt⟩
  refine ⟨⟨32 * ((i 0).val / 1024) + 8 * ((i 1).val / 1024) + 7, hlt⟩, (flush0_2 _).mpr (by
    show (32 * ((i 0).val / 1024) + 8 * ((i 1).val / 1024) + 7) % 8 = 7; omega), ?_⟩
  show i ∈ ((View.whole main_v2).slice (win0_2.rect ⟨32 * ((i 0).val / 1024) + 8 * ((i 1).val / 1024) + 7, hlt⟩)).set
  rw [View.set_slice_whole, Rect.mem_set_unit]
  intro a
  match a with
  | ⟨0, _⟩ =>
    show win0_2.index ⟨32 * ((i 0).val / 1024) + 8 * ((i 1).val / 1024) + 7, hlt⟩ (0 : Fin 2) * 1024 ≤ (i 0).val
      ∧ (i 0).val < win0_2.index ⟨32 * ((i 0).val / 1024) + 8 * ((i 1).val / 1024) + 7, hlt⟩ (0 : Fin 2) * 1024 + 1024
    rw [e0]
    show (32 * ((i 0).val / 1024) + 8 * ((i 1).val / 1024) + 7) / 32 * 1024 ≤ (i 0).val
      ∧ (i 0).val < (32 * ((i 0).val / 1024) + 8 * ((i 1).val / 1024) + 7) / 32 * 1024 + 1024
    omega
  | ⟨1, _⟩ =>
    show win0_2.index ⟨32 * ((i 0).val / 1024) + 8 * ((i 1).val / 1024) + 7, hlt⟩ (1 : Fin 2) * 1024 ≤ (i 1).val
      ∧ (i 1).val < win0_2.index ⟨32 * ((i 0).val / 1024) + 8 * ((i 1).val / 1024) + 7, hlt⟩ (1 : Fin 2) * 1024 + 1024
    rw [e1]
    show (32 * ((i 0).val / 1024) + 8 * ((i 1).val / 1024) + 7) / 8 % 4 * 1024 ≤ (i 1).val
      ∧ (i 1).val < (32 * ((i 0).val / 1024) + 8 * ((i 1).val / 1024) + 7) / 8 % 4 * 1024 + 1024
    omega

end

end Val0

section
variable (V : (c : Dev nD) → (b : Ref sig .tc) → Buf (Elt Ideal) ((c : Thread nD τ).loc b))

/-- THE VALUE OF THE FIRST REGION: its output array ends holding x · wᵀ of the two input arrays as the region finds them. -/
theorem final0 (c : Dev nD) :
    (dat0 (F := Ideal) V c).arrAt 2 cfg0.N
      = Cert.Spec.out (V c main_v0 : Cert.Spec.SB.Idx → EReal) (V c main_v1 : Cert.Spec.SW.Idx → EReal) :=
  (dat0 (F := Ideal) V c).arrAt_eq_of_cover 2 (Cert.Spec.out (Val0.X0 V c) (Val0.W0 V c))
    (fun t hf => Val0.flushed0_eq V c t hf) Val0.cover0

end

end Cert.KernelIdeal.Hand

end
-- ==== Proof.LibDotTN.lean ====
/-
  A product of a transposed matrix with a matrix, read at an entry as the textbook sum.

  A product of a `K × M` matrix `A` by a `K × N` matrix `B` whose dimension numbers contract the FIRST axis of both
  operands, keep the left columns and the right columns in that order, and have no batch axis: the product `Aᵀ · B`.
  At result entry `(i, j)` and contraction position `k` the left operand is read at `(k, i)` and the right at
  `(k, j)`, and the one-axis contraction index set is its coordinate range `Fin K`; so the sum over the contraction
  index is `∑ q : Fin K, A (q, i) * B (q, j)`. Stated for ANY dimension-number record with those lists and for operands
  of any two float formats, at the extended reals, for the accumulating block product into a zero accumulator and for
  the host's product. Nothing here depends on a particular program.
-/
import Idealize.ShloMosaic.PureOps.Ideal
import Idealize.ShloMosaic.PureOps.Ideal.Laws
import Idealize.ShloMosaic.Lib.ValueIdx

noncomputable section

open scoped BigOperators

namespace Cert.LibDotTN

open Idealize.ShloMosaic Idealize.ShloMosaic.ValueIdx

variable {M K N : Nat} (d : DotDims (⟨2, ![K, M]⟩ : Shape) (⟨2, ![K, N]⟩ : Shape) (⟨2, ![M, N]⟩ : Shape))
  (hlc : d.lhsContracting = [0]) (hrc : d.rhsContracting = [0]) (hln : d.lhsNonContracting = [1])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent `K`, the number of rows of both operands. -/
theorem contr_size (h : 0 < d.contr.rank) : d.contr.size ⟨0, h⟩ = K := by
  obtain ⟨lc, rc, ln, rn, lb, rb, wf⟩ := d
  subst hlc hrc hln hrn hlb hrb
  rfl

/-- The left operand's column is the result's row. -/
theorem lhs_col (i : Fin M) (j : Fin N) (k : d.contr.Idx) : (d.lhsIdx (ix2 i j) k 1).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF `Aᵀ · B` at entry `(i, j)`: at contraction position `k` with coordinate `q` the left
    operand is read at `(q, i)` and the right at `(q, j)`, and the positions correspond one to one to the coordinates
    `q : Fin K`, so the sum is re-indexed by them. -/
theorem tn_sum (l : (⟨2, ![K, M]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 q i) * r (ix2 q j) := by
  have h1 := contr_rank d hlc hrc hln hrn hlb hrb
  have hK := contr_size d hlc hrc hln hrn hlb hrb (by omega)
  have hl : ∀ k : d.contr.Idx, d.lhsIdx (ix2 i j) k = ix2 (contrEquiv1 d K h1 hK k) i := by
    intro k
    funext a
    refine Fin.ext ?_
    match a with
    | ⟨0, _⟩ => exact d.lhsIdx_val_of_single hlc (ix2 i j) k
    | ⟨1, _⟩ => exact lhs_col d hlc hrc hln hrn hlb hrb i j k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 q i) * r (ix2 q j)) (contrEquiv1 d K h1 hK k) :=
        Finset.sum_congr rfl fun k _ => by rw [hl k, hr k]
    _ = ∑ q : Fin K, l (ix2 q i) * r (ix2 q j) :=
        Equiv.sum_comp (contrEquiv1 d K h1 hK) fun q : Fin K => l (ix2 q i) * r (ix2 q j)

/-- A block product `Aᵀ · B` into the zero accumulator, read at `(i, j)`, is that sum. -/
theorem matmul_zero_apply {φ₁ φ₂ : FTy} (prec : Option ContractPrecision) (l : FVec Ideal (⟨2, ![K, M]⟩ : Shape) φ₁)
    (r : FVec Ideal (⟨2, ![K, N]⟩ : Shape) φ₂) (i : Fin M) (j : Fin N) :
    matmul d prec l r (constant (⟨2, ![M, N]⟩ : Shape) .f32 0x00000000#32) (ix2 i j)
      = ∑ q : Fin K, l (ix2 q i) * r (ix2 q j) := by
  show FloatOps.matmul d prec l r (constant (⟨2, ![M, N]⟩ : Shape) .f32 0x00000000#32) (ix2 i j) = _
  rw [Ideal.matmul_constant_zero_apply]
  exact tn_sum d hlc hrc hln hrn hlb hrb l r i j

/-- The host's product `Aᵀ · B`, read at `(i, j)`, is that sum. -/
theorem hostDot_apply {φ₁ φ₂ : FTy} (prec : Option ContractPrecision) (l : FVec Ideal (⟨2, ![K, M]⟩ : Shape) φ₁)
    (r : FVec Ideal (⟨2, ![K, N]⟩ : Shape) φ₂) (i : Fin M) (j : Fin N) :
    Host.dotGeneral d prec l r (ix2 i j) = ∑ q : Fin K, l (ix2 q i) * r (ix2 q j) := by
  simp only [Host.dotGeneral]
  rw [Ideal.dotGeneral_apply]
  exact tn_sum d hlc hrc hln hrn hlb hrb l r i j

end Cert.LibDotTN

end
-- ==== Proof.Val1.lean ====
/-
  The value of the second kernel region over the extended reals: the array it leaves in its output buffer is the updated
  weight matrix  w + c · postᵀ · x,  post = max(y − thr, 0).

  Point t = 16·o + b of the 16 × 16 grid handles output row block o (256 rows) and batch block b (512 rows). One step adds
  to the accumulator's entry (p, i) the sum over the block's 512 batch rows l of max(y(512·b + l, 256·o + p) − thr(0, 256·o + p), 0)
  · x(512·b + l, i): a product of the transposed rectified block with the input block. So after the point with batch block
  b the entry is the running sum ((0 + s₀) + s₁) + … + s_b of the batch blocks' shares; after b = 15 that is the sum over
  all 8192 batch rows, the correlation of the specification, since a sum over 8192 = 16 · 512 terms is the sum of its 16
  tiles' sums (only re-association, so nothing is asked of the summands). The output block is then the weight block plus
  the step size times the accumulator, and the 16 output blocks written at the points with batch block 15 tile the
  4096 × 4096 array.
-/
import proofs.«150280_j81003083202674_1_alg».proof.Proof.R1Defs
import proofs.«150280_j81003083202674_1_alg».proof.Proof.Spec
import proofs.«150280_j81003083202674_1_alg».proof.Proof.LibDotTN
import proofs.«150280_j81003083202674_1_alg».proof.Proof.LibTileSum
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal.Gen

namespace Val1

/-! ## The three block operations at an entry -/

/-- One accumulation step at entry (p, i): the accumulator plus the sum over the block's 512 batch rows of the rectified
    thresholded output at (row, p) times the input at (row, i). -/
theorem step1_apply (acc : Vec Ideal S256x4096 .f32) (y : Vec Ideal S512x256 .f32) (th : Vec Ideal S1x256 .f32)
    (x : Vec Ideal S512x4096 .bf16) (p : Fin 256) (i : Fin 4096) :
    (step1 acc y th x : Vec Ideal S256x4096 .f32) (ix2 p i)
      = acc (ix2 p i) + ∑ l : Fin 512, max (y (ix2 l p) - th (ix2 (0 : Fin 1) p)) (Ideal.ofBits .f32 0x00000000#32) * x (ix2 l i) := by
  unfold step1 k1_pay2
  simp only [shapeCast_self]
  refine (addf_apply _ _ _).trans ?_
  refine congrArg (acc (ix2 p i) + ·) ?_
  refine (Cert.LibDotTN.matmul_zero_apply (M := 256) (K := 512) (N := 4096) (φ₁ := .bf16) (φ₂ := .bf16) dot_S512x256_S512x4096_S256x4096_0_0_1_1_n_n rfl rfl rfl rfl rfl rfl none _ _ p i).trans ?_
  refine Finset.sum_congr rfl fun l _ => ?_
  refine congrArg (· * x (ix2 l i)) ?_
  exact congrArg (fun z => max (y (ix2 l p) - z) (Ideal.ofBits .f32 0x00000000#32)) (broadcastTo_1b_ab_apply th broadcasts_S1x256_S512x256 l p)

/-- The zero block reads the zero word everywhere. -/
theorem zero1_apply (p : Fin 256) (i : Fin 4096) :
    (k1_pay1 (F := Ideal) : Vec Ideal S256x4096 .f32) (ix2 p i) = Ideal.ofBits .f32 0x00000000#32 := by
  unfold k1_pay1
  simp only [shapeCast_self]
  rfl

/-- The first step of a row block at entry (p, i): the same sum added to zero. -/
theorem first1_apply (y : Vec Ideal S512x256 .f32) (th : Vec Ideal S1x256 .f32)
    (x : Vec Ideal S512x4096 .bf16) (p : Fin 256) (i : Fin 4096) :
    (first1 y th x : Vec Ideal S256x4096 .f32) (ix2 p i)
      = 0 + ∑ l : Fin 512, max (y (ix2 l p) - th (ix2 (0 : Fin 1) p)) (Ideal.ofBits .f32 0x00000000#32) * x (ix2 l i) := by
  refine (step1_apply (k1_pay1 (F := Ideal)) y th x p i).trans ?_
  refine congrArg (· + ∑ l : Fin 512, max (y (ix2 l p) - th (ix2 (0 : Fin 1) p)) (Ideal.ofBits .f32 0x00000000#32) * x (ix2 l i)) ?_
  exact (zero1_apply p i).trans Ideal.ofBits_zero_f32

/-- The last step's output block at entry (p, i): the weight plus the step size times the accumulator. -/
theorem fin1_apply (w acc : Vec Ideal S256x4096 .f32) (p : Fin 256) (i : Fin 4096) :
    (fin1 w acc : Vec Ideal S256x4096 .f32) (ix2 p i) = w (ix2 p i) + Ideal.ofBits .f32 0x3403126F#32 * acc (ix2 p i) := by
  unfold fin1 k1_pay3
  rfl

/-! ## Where each window's block sits in its array -/

/-- Point t = 16·o + b reads batch block b of the input and of the layer's output, output block o of the weights, of
    the layer's output's columns and of the threshold, and writes output block o. -/
theorem idx1 : ∀ t : Fin cfg1.N,
    (win1_0.index t (0 : Fin 2) = t.val % 16 ∧ win1_0.index t (1 : Fin 2) = 0)
    ∧ (win1_1.index t (0 : Fin 2) = t.val / 16 ∧ win1_1.index t (1 : Fin 2) = 0)
    ∧ (win1_2.index t (0 : Fin 2) = t.val % 16 ∧ win1_2.index t (1 : Fin 2) = t.val / 16)
    ∧ (win1_3.index t (0 : Fin 2) = 0 ∧ win1_3.index t (1 : Fin 2) = t.val / 16)
    ∧ (win1_4.index t (0 : Fin 2) = t.val / 16 ∧ win1_4.index t (1 : Fin 2) = 0) :=
  (by decide +kernel : ∀ t : Fin grid1.N, _)

section
variable {F : FTy → Type} [FloatOps F]
variable (V : (c : Dev nD) → (b : Ref sig .tc) → Buf (Elt F) ((c : Thread nD τ).loc b))

/-- The four input blocks at a point and the four arrays they are cut from, at their literal shapes. -/
abbrev xblk (c : Dev nD) (t : Fin cfg1.N) : Vec F S512x4096 .bf16 := iblk1 V c 0 t
abbrev wblk (c : Dev nD) (t : Fin cfg1.N) : Vec F S256x4096 .f32 := iblk1 V c 1 t
abbrev yblk (c : Dev nD) (t : Fin cfg1.N) : Vec F S512x256 .f32 := iblk1 V c 2 t
abbrev tblk (c : Dev nD) (t : Fin cfg1.N) : Vec F S1x256 .f32 := iblk1 V c 3 t
abbrev xarr (c : Dev nD) : Vec F S8192x4096 .bf16 := V c main_v0
abbrev warr (c : Dev nD) : Vec F S4096x4096 .f32 := V c main_arg1
abbrev yarr (c : Dev nD) : Vec F S8192x4096 .f32 := V c main_v2
abbrev tarr (c : Dev nD) : Vec F S1x4096 .f32 := V c main_v11

/-- The input block at point t, entry (l, i), is the input at (512·(t mod 16) + l, i). -/
theorem xblk_apply (c : Dev nD) (t : Fin cfg1.N) (l : Fin 512) (i : Fin 4096) (k : S8192x4096.Idx)
    (hk0 : (k 0).val = 512 * (t.val % 16) + l.val) (hk1 : (k 1).val = i.val) :
    xblk V c t (ix2 l i) = xarr V c k := by
  obtain ⟨⟨e0, e1⟩, -⟩ := idx1 t
  unfold xblk xarr iblk1
  rw [View.read_apply]
  show V c main_v0 _ = V c main_v0 _
  congr 1
  funext a
  apply Fin.ext
  match a with
  | ⟨0, _⟩ => show win1_0.index t 0 * 512 + 1 * l.val = (k 0).val; rw [e0, hk0]; omega
  | ⟨1, _⟩ => show win1_0.index t 1 * 4096 + 1 * i.val = (k 1).val; rw [e1, hk1]; omega

/-- The weight block at point t, entry (p, i), is the weight at (256·(t / 16) + p, i). -/
theorem wblk_apply (c : Dev nD) (t : Fin cfg1.N) (p : Fin 256) (i : Fin 4096) (k : S4096x4096.Idx)
    (hk0 : (k 0).val = 256 * (t.val / 16) + p.val) (hk1 : (k 1).val = i.val) :
    wblk V c t (ix2 p i) = warr V c k := by
  obtain ⟨-, ⟨e0, e1⟩, -⟩ := idx1 t
  unfold wblk warr iblk1
  rw [View.read_apply]
  show V c main_arg1 _ = V c main_arg1 _
  congr 1
  funext a
  apply Fin.ext
  match a with
  | ⟨0, _⟩ => show win1_1.index t 0 * 256 + 1 * p.val = (k 0).val; rw [e0, hk0]; omega
  | ⟨1, _⟩ => show win1_1.index t 1 * 4096 + 1 * i.val = (k 1).val; rw [e1, hk1]; omega

/-- The layer-output block at point t, entry (l, p), is the layer's output at (512·(t mod 16) + l, 256·(t / 16) + p). -/
theorem yblk_apply (c : Dev nD) (t : Fin cfg1.N) (l : Fin 512) (p : Fin 256) (k : S8192x4096.Idx)
    (hk0 : (k 0).val = 512 * (t.val % 16) + l.val) (hk1 : (k 1).val = 256 * (t.val / 16) + p.val) :
    yblk V c t (ix2 l p) = yarr V c k := by
  obtain ⟨-, -, ⟨e0, e1⟩, -⟩ := idx1 t
  unfold yblk yarr iblk1
  rw [View.read_apply]
  show V c main_v2 _ = V c main_v2 _
  congr 1
  funext a
  apply Fin.ext
  match a with
  | ⟨0, _⟩ => show win1_2.index t 0 * 512 + 1 * l.val = (k 0).val; rw [e0, hk0]; omega
  | ⟨1, _⟩ => show win1_2.index t 1 * 256 + 1 * p.val = (k 1).val; rw [e1, hk1]; omega

/-- The threshold block at point t, entry (0, p), is the threshold row at (0, 256·(t / 16) + p). -/
theorem tblk_apply (c : Dev nD) (t : Fin cfg1.N) (p : Fin 256) (k : S1x4096.Idx)
    (hk0 : (k 0).val = 0) (hk1 : (k 1).val = 256 * (t.val / 16) + p.val) :
    tblk V c t (ix2 (0 : Fin 1) p) = tarr V c k := by
  obtain ⟨-, -, -, ⟨e0, e1⟩, -⟩ := idx1 t
  unfold tblk tarr iblk1
  rw [View.read_apply]
  show V c main_v11 _ = V c main_v11 _
  congr 1
  funext a
  apply Fin.ext
  match a with
  | ⟨0, _⟩ => show win1_3.index t 0 * 1 + 1 * (0 : Fin 1).val = (k 0).val; rw [e0, hk0]; rfl
  | ⟨1, _⟩ => show win1_3.index t 1 * 256 + 1 * p.val = (k 1).val; rw [e1, hk1]; omega

end

/-! ## The correlation, batch block by batch block -/

/-- The correlation's summand at batch row r, for output o and feature i. -/
def term1 (Y : S8192x4096.Idx → EReal) (T : S1x4096.Idx → EReal) (X : S8192x4096.Idx → EReal) (o i : Fin 4096)
    (r : Fin 8192) : EReal :=
  max (Y (ix2 r o) - T (ix2 (0 : Fin 1) o)) (Ideal.ofBits .f32 0x00000000#32) * X (ix2 r i)

/-- Batch block b's share of the correlation: the summands of its 512 rows. -/
def part1 (Y : S8192x4096.Idx → EReal) (T : S1x4096.Idx → EReal) (X : S8192x4096.Idx → EReal) (o i : Fin 4096)
    (b : ℕ) : EReal :=
  ∑ l : Fin 512, term1 Y T X o i (TileSum.tileIdx 512 8192 (by decide) b l)

/-- The correlation is the running sum of the sixteen batch blocks' shares, in block order. -/
theorem hebb_tiles (Y : S8192x4096.Idx → EReal) (T : S1x4096.Idx → EReal) (X : S8192x4096.Idx → EReal) (o i : Fin 4096) :
    Cert.Spec.hebbAt Y T X o i = TileSum.running (part1 Y T X o i) 15 := by
  rw [TileSum.running_eq_sum]
  exact TileSum.sum_tiles 16 512 8192 rfl (by decide) (term1 Y T X o i)

/-- Row p of output block n / 16, as a row of the weight matrix. -/
abbrev orow (n : ℕ) (p : Fin 256) : Fin 4096 := TileSum.tileIdx 256 4096 (by decide) (n / 16) p

theorem orow_val (n : ℕ) (hn : n < 256) (p : Fin 256) : (orow n p).val = 256 * (n / 16) + p.val :=
  TileSum.tileIdx_val (by decide) (T := 16) rfl (by omega) p

section
variable (V : (c : Dev nD) → (b : Ref sig .tc) → Buf (Elt Ideal) ((c : Thread nD τ).loc b))

/-- The block product's sum at point n is batch block n mod 16's share, for output row 256·(n / 16) + p. -/
theorem blk_sum (c : Dev nD) (n : ℕ) (hn : n < cfg1.N) (p : Fin 256) (i : Fin 4096) :
    (∑ l : Fin 512, max (yblk V c ⟨n, hn⟩ (ix2 l p) - tblk V c ⟨n, hn⟩ (ix2 (0 : Fin 1) p))
        (Ideal.ofBits .f32 0x00000000#32) * xblk V c ⟨n, hn⟩ (ix2 l i))
      = part1 (yarr V c) (tarr V c) (xarr V c) (orow n p) i (n % 16) := by
  have hn' : n < 256 := by have := hn; rw [N1] at this; exact this
  have ho := orow_val n hn' p
  unfold part1 term1
  refine Finset.sum_congr rfl fun l _ => ?_
  have hr : (TileSum.tileIdx 512 8192 (by decide) (n % 16) l).val = 512 * (n % 16) + l.val :=
    TileSum.tileIdx_val (by decide) (T := 16) rfl (by omega) l
  rw [yblk_apply V c ⟨n, hn⟩ l p (ix2 (TileSum.tileIdx 512 8192 (by decide) (n % 16) l) (orow n p)) hr ho,
    tblk_apply V c ⟨n, hn⟩ p (ix2 (0 : Fin 1) (orow n p)) rfl ho,
    xblk_apply V c ⟨n, hn⟩ l i (ix2 (TileSum.tileIdx 512 8192 (by decide) (n % 16) l) i) hr rfl]

/-- THE ACCUMULATOR AFTER POINT n, at entry (p, i): the running sum of the shares of batch blocks 0 … n mod 16, for
    output row 256·(n / 16) + p. -/
theorem acc1_apply (c : Dev nD) : ∀ (n : ℕ) (hn : n < cfg1.N) (p : Fin 256) (i : Fin 4096),
    (acc1 V c n hn : Vec Ideal S256x4096 .f32) (ix2 p i)
      = TileSum.running (part1 (yarr V c) (tarr V c) (xarr V c) (orow n p) i) (n % 16)
  | 0, hn, p, i => by
    refine (congrFun (acc1_first V c ⟨0, hn⟩ rfl) (ix2 p i)).trans ?_
    refine (first1_apply (yblk V c ⟨0, hn⟩) (tblk V c ⟨0, hn⟩) (xblk V c ⟨0, hn⟩) p i).trans ?_
    rw [blk_sum V c 0 hn p i]
    rfl
  | n + 1, hn, p, i => by
    by_cases h : (n + 1) % 16 = 0
    · refine (congrFun (acc1_first V c ⟨n + 1, hn⟩ h) (ix2 p i)).trans ?_
      refine (first1_apply (yblk V c ⟨n + 1, hn⟩) (tblk V c ⟨n + 1, hn⟩) (xblk V c ⟨n + 1, hn⟩) p i).trans ?_
      rw [blk_sum V c (n + 1) hn p i, h]
      rfl
    · have hn' : n < cfg1.N := Nat.lt_of_succ_lt hn
      refine (congrFun (acc1_step V c ⟨n + 1, hn⟩ h) (ix2 p i)).trans ?_
      refine (step1_apply (acc1 V c n hn') (yblk V c ⟨n + 1, hn⟩) (tblk V c ⟨n + 1, hn⟩) (xblk V c ⟨n + 1, hn⟩) p i).trans ?_
      rw [blk_sum V c (n + 1) hn p i, acc1_apply c n hn' p i]
      have e1 : (n + 1) / 16 = n / 16 := by omega
      have e2 : (n + 1) % 16 = n % 16 + 1 := by omega
      have e3 : orow (n + 1) p = orow n p := by unfold orow; rw [e1]
      rw [e3, e2]
      rfl

end

/-! ## What the last batch block's point writes back, and the blocks tile the array -/

section
variable (V : (c : Dev nD) → (b : Ref sig .tc) → Buf (Elt Ideal) ((c : Thread nD τ).loc b))

/-- The updated weights over the arrays the region finds. -/
abbrev G1 (c : Dev nD) : S4096x4096.Idx → EReal := Cert.Spec.neww (warr V c) (yarr V c) (tarr V c) (xarr V c)

/-- WHAT A POINT WITH BATCH BLOCK 15 WRITES BACK is its block of the updated weights: the accumulator holds the whole
    correlation, and the output block is the weight block plus the step size times it. -/
theorem flushed1_eq (c : Dev nD) (t : Fin cfg1.N) (hf : (cfg1.win 4).flush t = true) :
    (dat1 V c).flushed 4 t = ((cfg1.win 4).blk t).view.read (Elt Ideal) (G1 V c) := by
  have h15 : t.val % 16 = 15 := (flush1_4 t).mp hf
  have ht : t.val < 256 := Nat.lt_of_lt_of_eq t.isLt N1
  obtain ⟨-, -, -, -, e0, e1⟩ := idx1 t
  show (cfg1.win 4).cut (grid1.coords t) ((dat1 V c).after 4 t) = _
  rw [after1_4]
  funext j
  obtain ⟨p, i, rfl⟩ : ∃ (p : Fin 256) (i : Fin 4096), j = ix2 p i := ⟨j 0, j 1, eq_ix2 j⟩
  have hj : ((cfg1.win 4).blk t).view.emb (ix2 p i) = (ix2 (orow t.val p) i : S4096x4096.Idx) := by
    funext a
    apply Fin.ext
    match a with
    | ⟨0, _⟩ => show win1_4.index t 0 * 256 + 1 * p.val = (orow t.val p).val; rw [e0, orow_val t.val ht p]; omega
    | ⟨1, _⟩ => show win1_4.index t 1 * 4096 + 1 * i.val = i.val; rw [e1]; omega
  show (fin1 (wblk V c t) (acc1 V c t.val t.isLt) : Vec Ideal S256x4096 .f32) (ix2 p i) = G1 V c (((cfg1.win 4).blk t).view.emb (ix2 p i))
  rw [hj]
  refine (fin1_apply (wblk V c t) (acc1 V c t.val t.isLt) p i).trans ?_
  rw [acc1_apply V c t.val t.isLt p i, h15, ← hebb_tiles, wblk_apply V c t p i (ix2 (orow t.val p) i) (orow_val t.val ht p) rfl]
  rfl

/-- Every entry of the weight matrix is in the block some point with batch block 15 writes back: row r is in output
    block r / 256, written at point 16·(r / 256) + 15. -/
theorem cover1 (i : S4096x4096.Idx) :
    ∃ t : Fin cfg1.N, (cfg1.win 4).flush t = true ∧ i ∈ ((cfg1.win 4).blk t).view.set := by
  have h0 : (i 0).val < 4096 := (i 0).isLt
  have h1 : (i 1).val < 4096 := (i 1).isLt
  obtain ⟨t, htv⟩ : ∃ t : Fin cfg1.N, t.val = 16 * ((i 0).val / 256) + 15 := ⟨⟨16 * ((i 0).val / 256) + 15, by rw [N1]; omega⟩, rfl⟩
  obtain ⟨-, -, -, -, e0, e1⟩ := idx1 t
  refine ⟨t, (flush1_4 t).mpr (by omega), ?_⟩
  show i ∈ ((View.whole main_v12).slice (win1_4.rect t)).set
  rw [View.set_slice_whole, Rect.mem_set_unit]
  intro a
  match a with
  | ⟨0, _⟩ =>
    show win1_4.index t (0 : Fin 2) * 256 ≤ (i 0).val ∧ (i 0).val < win1_4.index t (0 : Fin 2) * 256 + 256
    rw [e0, htv]; omega
  | ⟨1, _⟩ =>
    show win1_4.index t (1 : Fin 2) * 4096 ≤ (i 1).val ∧ (i 1).val < win1_4.index t (1 : Fin 2) * 4096 + 4096
    rw [e1]; omega

end

end Val1

/-- THE VALUE OF THE SECOND REGION over the extended reals: its output array ends holding the updated weights
    w + c · postᵀ · x, post = max(y − thr, 0), of the arrays the region finds. -/
theorem final1 (V : (c : Dev nD) → (b : Ref sig .tc) → Buf (Elt Ideal) ((c : Thread nD τ).loc b)) (c : Dev nD) :
    (dat1 (F := Ideal) V c).arrAt 4 cfg1.N
      = Cert.Spec.neww (V c main_arg1) (V c main_v2) (V c main_v11) (V c main_v0) :=
  (dat1 V c).arrAt_eq_of_cover 4 (Val1.G1 V c) (Val1.flushed1_eq V c) Val1.cover1

end Cert.KernelIdeal.Hand
end
-- ==== Proof.HostChain.lean ====
/-
  The host operations of the idealized kernel program read back as functions of what they find, at the extended reals.
  Before the first region the two inputs are cast to the narrow float format: at the extended reals a change of
  format is the identity.  Between the regions twelve operations compute the new threshold from the layer output y
  and the old threshold t₀:   t₀ + ((∑_b y(b, ·) / 8192)² − t₀) / 1000,   and reshape it to one row.  The chain is
  kept as ONE function `kerThr` of (y, t₀): the reference applies the same operations, so it is never opened.
-/
import proofs.«150280_j81003083202674_1_alg».proof.Proof.Gen.KernelIdeal.Launch
import proofs.«150280_j81003083202674_1_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.TcCoe Idealize.SL.Sem Idealize.ShloMosaic.StableHlo Idealize.ShloMosaic.ValueIdx
open Cert.KernelIdeal.Gen

/-- The new threshold as a function of the layer output and the old threshold. -/
def kerThr (y : FVec Ideal S8192x4096 .f32) (t0 : FVec Ideal S4096 .f32) : FVec Ideal S4096 .f32 :=
  addf t0 (Host.divf (F := Ideal) (subf (mulf
      (Host.divf (F := Ideal) (Host.reduceAdd (F := Ideal) y (constant (F := Ideal) S_ .f32 0x00000000#32) reducesTo_S8192x4096_S4096_d0 h_S_) (broadcastInDim S4096 ![] bcast_S_S4096 (constant (F := Ideal) S_ .f32 0x46000000#32)))
      (Host.divf (F := Ideal) (Host.reduceAdd (F := Ideal) y (constant (F := Ideal) S_ .f32 0x00000000#32) reducesTo_S8192x4096_S4096_d0 h_S_) (broadcastInDim S4096 ![] bcast_S_S4096 (constant (F := Ideal) S_ .f32 0x46000000#32))))
    t0) (broadcastInDim S4096 ![] bcast_S_S4096 (constant (F := Ideal) S_ .f32 0x447A0000#32)))

variable (Wv : Valuation τ sig (Elt Ideal))

/-- The cast of x is x. -/
theorem cast_v0 : StableHlo.after (hostOps0 (F := Ideal)) Wv (Proc.devRef .tc main_v0) = (Wv (Proc.devRef .tc main_arg0) : S8192x4096.Idx → EReal) := by
  after_results; rfl
/-- The cast of w is w. -/
theorem cast_v1 : StableHlo.after (hostOps0 (F := Ideal)) Wv (Proc.devRef .tc main_v1) = (Wv (Proc.devRef .tc main_arg1) : S4096x4096.Idx → EReal) := by
  after_results; rfl

/-- The new threshold. -/
theorem thr_v10 : StableHlo.after (hostOps1 (F := Ideal)) Wv (Proc.devRef .tc main_v10)
    = kerThr (Wv (Proc.devRef .tc main_v2)) (Wv (Proc.devRef .tc main_arg2)) := by
  after_results; rfl
/-- The same as one row. -/
theorem thr_v11 : (StableHlo.after (hostOps1 (F := Ideal)) Wv (Proc.devRef .tc main_v11) : S1x4096.Idx → EReal)
    = Cert.Spec.row (kerThr (Wv (Proc.devRef .tc main_v2)) (Wv (Proc.devRef .tc main_arg2))) := by
  have e : (StableHlo.after (hostOps1 (F := Ideal)) Wv (Proc.devRef .tc main_v11) : S1x4096.Idx → EReal)
      = shapeCast S1x4096 (kerThr (Wv (Proc.devRef .tc main_v2)) (Wv (Proc.devRef .tc main_arg2))) shapeCasts_S4096_S1x4096 := by
    after_results; rfl
  rw [e]
  funext j
  obtain ⟨z, o, rfl⟩ : ∃ (z : Fin 1) (o : Fin 4096), j = ix2 z o := ⟨j 0, j 1, eq_ix2 j⟩
  exact shapeCast_a_1a_apply _ _ _ _

end Cert.KernelIdeal.Hand

end
-- ==== Proof.KVal.lean ====
/-
  The three results of the idealized kernel program, at the extended reals, as the specification's functions of the
  launch arrays x, w and the old threshold t₀:
    * the layer output           y   = x · wᵀ                       (the first region's output array);
    * the new threshold          thr = kerThr y t₀                   (the host operations between the regions);
    * the updated weights        w + c · max(y − thr, 0)ᵀ · x        (the second region's output array).
  Each buffer is followed through the fold of the run's boundaries: the casts are the identity, a region leaves its
  input arrays alone, the host operations write only their own results.
-/
import proofs.«150280_j81003083202674_1_alg».proof.Proof.Run
import proofs.«150280_j81003083202674_1_alg».proof.Proof.Val0
import proofs.«150280_j81003083202674_1_alg».proof.Proof.Val1
import proofs.«150280_j81003083202674_1_alg».proof.Proof.HostChain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable (m : (ℓ : Loc nD τ sig) → Buf (Elt Ideal) ℓ) (ρ : Dev nD → PrngReg)

/-- x · wᵀ of the launch arrays. -/
abbrev kOut (c : Dev nD) : S8192x4096.Idx → EReal := Cert.Spec.out (m ((c : Thread nD τ).loc main_arg0)) (m ((c : Thread nD τ).loc main_arg1))
/-- The new threshold. -/
abbrev kThr (c : Dev nD) : S4096.Idx → EReal := kerThr (kOut m c) (m ((c : Thread nD τ).loc main_arg2))
/-- The updated weights. -/
abbrev kNew (c : Dev nD) : S4096x4096.Idx → EReal :=
  Cert.Spec.neww (m ((c : Thread nD τ).loc main_arg1)) (kOut m c) (Cert.Spec.row (kThr m c)) (m ((c : Thread nD τ).loc main_arg0))

/-! ## Before and through the first region -/

theorem W1_v0 (c : Dev nD) : W1 m ρ c (Proc.devRef .tc main_v0) = m ((c : Thread nD τ).loc main_arg0) := cast_v0 (W0 m ρ c)
theorem W1_v1 (c : Dev nD) : W1 m ρ c (Proc.devRef .tc main_v1) = m ((c : Thread nD τ).loc main_arg1) := cast_v1 (W0 m ρ c)

theorem W2_v2 (c : Dev nD) : W2 m ρ c (Proc.devRef .tc main_v2) = kOut m c := by
  refine (W2_arr m ρ c 2).trans ?_
  rw [final0]
  exact congrArg₂ Cert.Spec.out (W1_v0 m ρ c) (W1_v1 m ρ c)

theorem W2_v0 (c : Dev nD) : W2 m ρ c (Proc.devRef .tc main_v0) = m ((c : Thread nD τ).loc main_arg0) :=
  (W2_in m ρ c 0 rfl).trans (W1_v0 m ρ c)
theorem W2_arg1 (c : Dev nD) : W2 m ρ c (Proc.devRef .tc main_arg1) = m ((c : Thread nD τ).loc main_arg1) :=
  (W2_of_ne m ρ c main_arg1 (by decide)).trans ((W1_of m ρ c main_arg1 (by decide)).trans rfl)
theorem W2_arg2 (c : Dev nD) : W2 m ρ c (Proc.devRef .tc main_arg2) = m ((c : Thread nD τ).loc main_arg2) :=
  (W2_of_ne m ρ c main_arg2 (by decide)).trans ((W1_of m ρ c main_arg2 (by decide)).trans rfl)

/-! ## The threshold, and the second region's entry -/

theorem W3_v10 (c : Dev nD) : W3 m ρ c (Proc.devRef .tc main_v10) = kThr m c := by
  refine (thr_v10 (W2 m ρ c)).trans ?_
  rw [W2_v2, W2_arg2]
theorem W3_v11 (c : Dev nD) : (W3 m ρ c (Proc.devRef .tc main_v11) : S1x4096.Idx → EReal) = Cert.Spec.row (kThr m c) := by
  refine (thr_v11 (W2 m ρ c)).trans ?_
  rw [W2_v2, W2_arg2]
theorem W3_v2 (c : Dev nD) : W3 m ρ c (Proc.devRef .tc main_v2) = kOut m c :=
  (W3_of m ρ c main_v2 (by decide)).trans (W2_v2 m ρ c)
theorem W3_v0 (c : Dev nD) : W3 m ρ c (Proc.devRef .tc main_v0) = m ((c : Thread nD τ).loc main_arg0) :=
  (W3_of m ρ c main_v0 (by decide)).trans (W2_v0 m ρ c)
theorem W3_arg1 (c : Dev nD) : W3 m ρ c (Proc.devRef .tc main_arg1) = m ((c : Thread nD τ).loc main_arg1) :=
  (W3_of m ρ c main_arg1 (by decide)).trans (W2_arg1 m ρ c)

/-! ## The results after the second region -/

theorem W4_v12 (c : Dev nD) : W4 m ρ c (Proc.devRef .tc main_v12) = kNew m c := by
  refine (W4_arr m ρ c 4).trans ?_
  rw [final1]
  show Cert.Spec.neww (W3 m ρ c (Proc.devRef .tc main_arg1)) (W3 m ρ c (Proc.devRef .tc main_v2)) (W3 m ρ c (Proc.devRef .tc main_v11)) (W3 m ρ c (Proc.devRef .tc main_v0)) = _
  rw [W3_arg1, W3_v2, W3_v11, W3_v0]
theorem W4_v2 (c : Dev nD) : W4 m ρ c (Proc.devRef .tc main_v2) = kOut m c :=
  (W4_in m ρ c 2 rfl).trans (W3_v2 m ρ c)
theorem W4_v10 (c : Dev nD) : W4 m ρ c (Proc.devRef .tc main_v10) = kThr m c :=
  (W4_of_ne m ρ c main_v10 (by decide)).trans (W3_v10 m ρ c)

/-- The run of the idealized kernel program with its three results named. -/
theorem kernel_value : θ_run (defs (F := Ideal)) (onTc (τ := τ) (main (F := Ideal))) ⟨m, fun _ => 0, ρ⟩ (fun r => ∀ c : Dev nD,
      r.2.mem ((c.tc : Thread nD τ).loc main_v2) = kOut m c
      ∧ r.2.mem ((c.tc : Thread nD τ).loc main_v10) = kThr m c
      ∧ r.2.mem ((c.tc : Thread nD τ).loc main_v12) = kNew m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2 (by decide))).trans (W4_v2 m ρ c),
     (h c _ (mem_uc main_v10 (by decide))).trans (W4_v10 m ρ c),
     (h c _ (mem_uc main_v12 (by decide))).trans (W4_v12 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_main m ρ)

end Cert.KernelIdeal.Hand

end
-- ==== Proof.Ref.lean ====
/-
  The reference side at the extended reals. The reference is 24 host operations; every execution ends with its
  three results at the operations' composed terms of the three arguments. Here those terms are identified with the
  specification's functions:
    * the layer's output is x · wᵀ, entry by entry the sum over the features (the host's product with the transposed
      weights, the transpose read at the swapped index);
    * the new threshold is ONE function of the layer's output and the old threshold (the chain of host operations,
      kept closed);
    * the new weights are w + c · hebb, where the host's product contracting the batch axis of both operands is, entry
      by entry, the sum over the batch of the rectified thresholded output times the input, and the threshold reaches
      every batch row through a one-row matrix.
  No law of the extended reals beyond reading each operation at an index is used, so nothing here needs finiteness.
-/
import proofs.«150280_j81003083202674_1_alg».proof.Proof.Gen.ReferenceIdeal.Run
import proofs.«150280_j81003083202674_1_alg».proof.Proof.Gen.ReferenceIdeal.Read
import proofs.«150280_j81003083202674_1_alg».proof.Proof.Spec
import proofs.«150280_j81003083202674_1_alg».proof.Proof.LibDotTN

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen

/-- The reference's threshold chain as ONE function of the layer's output y and the old threshold t0:
    t0 + ((mean over the batch of y)² − t0) / 1000, the mean over the 8192 batch rows as the column sum divided
    by 8192. -/
def refThr (y : FVec Ideal S8192x4096 .f32) (t0 : FVec Ideal S4096 .f32) : FVec Ideal S4096 .f32 :=
  addf t0 (Host.divf (subf (mulf
      (Host.divf (Host.reduceAdd (F := Ideal) y (constant (F := Ideal) S_ .f32 0x00000000#32) reducesTo_S8192x4096_S4096_d0 h_S_)
        (broadcastInDim S4096 ![] bcast_S_S4096 (constant (F := Ideal) S_ .f32 0x46000000#32)))
      (Host.divf (Host.reduceAdd (F := Ideal) y (constant (F := Ideal) S_ .f32 0x00000000#32) reducesTo_S8192x4096_S4096_d0 h_S_)
        (broadcastInDim S4096 ![] bcast_S_S4096 (constant (F := Ideal) S_ .f32 0x46000000#32)))) t0)
    (broadcastInDim S4096 ![] bcast_S_S4096 (constant (F := Ideal) S_ .f32 0x447A0000#32)))

/-- x · wᵀ on the host: the product of x with the transposed weights is, at entry (b, o), the sum over the features
    of x(b, k) · w(o, k) — the transposed weights read at (k, o) are the weights at (o, k). -/
theorem out_eq (a0 : FVec Ideal S8192x4096 .f32) (a1 : FVec Ideal S4096x4096 .f32) :
    Host.dotGeneral (F := Ideal) dot_S8192x4096_S4096x4096_S8192x4096_1_0_0_1_n_n none a0
      (transpose S4096x4096 [1, 0] a1 transposes_S4096x4096_S4096x4096_1_0) = Cert.Spec.out a0 a1 := by
  show Read.val_main_v1 (F := Ideal) a0 a1 = _
  funext i
  have el : ∀ k : Fin 4096, Read.lidx_main_v1 i k = ix2 (i 0) k := fun k =>
    funext fun a => Fin.ext (by match a with | ⟨0, _⟩ => rfl | ⟨1, _⟩ => rfl)
  have er : ∀ k : Fin 4096, Read.idx_main_v0 (Read.ridx_main_v1 i k) = ix2 (i 1) k := fun k =>
    funext fun a => Fin.ext (by match a with | ⟨0, _⟩ => rfl | ⟨1, _⟩ => rfl)
  rw [Read.val_main_v1_apply]
  simp only [Read.val_main_v0_apply, el, er]
  rfl

/-- A vector spread over the batch rows through a one-row matrix: entry (b, o) is the row's entry (0, o). -/
theorem rows_apply (v : FVec Ideal S4096 .f32) (b : Fin 8192) (o : Fin 4096) :
    broadcastInDim S8192x4096 ![0, 1] bcast_S1x4096_S8192x4096_0_1
      (broadcastInDim S1x4096 ![1] bcast_S4096_S1x4096_1 v) (ix2 b o) = Cert.Spec.row v (ix2 0 o) :=
  (broadcastInDim_apply _ bcast_S1x4096_S8192x4096_0_1 _ (ix2 b o) (ix2 (0 : Fin 1) o) (fun a => match a with
    | ⟨0, _⟩ => by show 0 = if (1 : Nat) = 1 then 0 else b.val; rw [if_pos rfl]
    | ⟨1, _⟩ => by show o.val = if (4096 : Nat) = 1 then 0 else o.val; rw [if_neg (by decide)])).trans
  (broadcastInDim_apply _ bcast_S4096_S1x4096_1 v (ix2 (0 : Fin 1) o) (ix1 o) (fun a => match a with
    | ⟨0, _⟩ => by show o.val = if (4096 : Nat) = 1 then 0 else o.val; rw [if_neg (by decide)]))

/-- The updated weights on the host, for ANY layer output Y and threshold vector thrv: at entry (o, i) the weight
    plus c times the sum over the batch of max(Y(b, o) − thrv(o), 0) · x(b, i) — the host's product contracting the
    batch axis of both operands read as that sum, the two constants read at every entry as their words. -/
theorem neww_eq (a0 Y : FVec Ideal S8192x4096 .f32) (a1 : FVec Ideal S4096x4096 .f32) (thrv : FVec Ideal S4096 .f32) :
    addf a1 (mulf (broadcastInDim S4096x4096 ![] bcast_S_S4096x4096 (constant (F := Ideal) S_ .f32 0x3403126F#32))
      (Host.dotGeneral (F := Ideal) dot_S8192x4096_S8192x4096_S4096x4096_0_0_1_1_n_n none
        (maximumf (subf Y (broadcastInDim S8192x4096 ![0, 1] bcast_S1x4096_S8192x4096_0_1
            (broadcastInDim S1x4096 ![1] bcast_S4096_S1x4096_1 thrv)))
          (broadcastInDim S8192x4096 ![] bcast_S_S8192x4096 (constant (F := Ideal) S_ .f32 0x00000000#32))) a0))
      = Cert.Spec.neww a1 Y (Cert.Spec.row thrv) a0 := by
  funext j
  obtain ⟨o, i, rfl⟩ : ∃ (o : Fin 4096) (i : Fin 4096), j = ix2 o i := ⟨j 0, j 1, eq_ix2 j⟩
  refine (addf_apply _ _ _).trans (congrArg (a1 (ix2 o i) + ·) ?_)
  refine (mulf_apply _ _ _).trans (congrArg (Ideal.ofBits .f32 0x3403126F#32 * ·) ?_)
  refine (Cert.LibDotTN.hostDot_apply _ rfl rfl rfl rfl rfl rfl none _ a0 o i).trans ?_
  refine Finset.sum_congr rfl fun q _ => congrArg (· * a0 (ix2 q i)) ?_
  refine (maximumf_apply _ _ _).trans (congrArg (max · (Ideal.ofBits .f32 0x00000000#32)) ?_)
  exact (subf_apply _ _ _).trans (congrArg (Y (ix2 q o) - ·) (rows_apply thrv q o))

/-- The layer's output as the reference's second operation writes it. -/
theorem v1_eq (a0 : FVec Ideal S8192x4096 .f32) (a1 : FVec Ideal S4096x4096 .f32) :
    Read.val_main_v1 (F := Ideal) a0 a1 = Cert.Spec.out a0 a1 := out_eq a0 a1

/-- The new threshold as the reference writes it: the threshold chain of x · wᵀ and the old threshold. -/
theorem v9_eq (a0 : FVec Ideal S8192x4096 .f32) (a1 : FVec Ideal S4096x4096 .f32) (a2 : FVec Ideal S4096 .f32) :
    Read.val_main_v9 (F := Ideal) a0 a1 a2 = refThr (Cert.Spec.out a0 a1) a2 :=
  congrArg (fun y => refThr y a2) (out_eq a0 a1)

/-- The new weights as the reference writes them: the Hebbian update by x · wᵀ thresholded at the new threshold. -/
theorem v18_eq (a0 : FVec Ideal S8192x4096 .f32) (a1 : FVec Ideal S4096x4096 .f32) (a2 : FVec Ideal S4096 .f32) :
    Read.val_main_v18 (F := Ideal) a0 a1 a2
      = Cert.Spec.neww a1 (Cert.Spec.out a0 a1) (Cert.Spec.row (refThr (Cert.Spec.out a0 a1) a2)) a0 := by
  have h : Read.val_main_v18 (F := Ideal) a0 a1 a2
      = Cert.Spec.neww a1 (Read.val_main_v1 (F := Ideal) a0 a1) (Cert.Spec.row (Read.val_main_v9 (F := Ideal) a0 a1 a2)) a0 :=
    neww_eq a0 (Read.val_main_v1 (F := Ideal) a0 a1) a1 (Read.val_main_v9 (F := Ideal) a0 a1 a2)
  rw [v9_eq, v1_eq] at h
  exact h

/-- THE REFERENCE'S RUN AT THE SPECIFICATION: every weakly fair execution of the reference ends with the layer's output
    at x · wᵀ, the new threshold at the threshold chain of that output and the old threshold, the new weights at the
    Hebbian update of the weights by that output thresholded at the new threshold, and the three arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1)
          = Cert.Spec.out (m ((c.tc : Thread nD τ).loc main_arg0)) (m ((c.tc : Thread nD τ).loc main_arg1))
      ∧ r.2.mem ((c.tc : Thread nD τ).loc main_v9)
          = refThr (Cert.Spec.out (m ((c.tc : Thread nD τ).loc main_arg0)) (m ((c.tc : Thread nD τ).loc main_arg1)))
              (m ((c.tc : Thread nD τ).loc main_arg2))
      ∧ r.2.mem ((c.tc : Thread nD τ).loc main_v18)
          = Cert.Spec.neww (m ((c.tc : Thread nD τ).loc main_arg1))
              (Cert.Spec.out (m ((c.tc : Thread nD τ).loc main_arg0)) (m ((c.tc : Thread nD τ).loc main_arg1)))
              (Cert.Spec.row (refThr (Cert.Spec.out (m ((c.tc : Thread nD τ).loc main_arg0)) (m ((c.tc : Thread nD τ).loc main_arg1)))
                (m ((c.tc : Thread nD τ).loc main_arg2))))
              (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run (defs (F := Ideal)) _ _).mono (fun _ h c => ?_) (Cert.ReferenceIdeal.Value.run (F := Ideal) m ρ)
  obtain ⟨h1, h9, h18, hargs⟩ := h c
  exact ⟨h1.trans (out_eq _ _),
    h9.trans ((Read.val_main_v9_eq _ _ _).trans (v9_eq _ _ _)),
    h18.trans ((Read.val_main_v18_eq _ _ _).trans (v18_eq _ _ _)),
    hargs⟩

end Cert.ReferenceIdeal.RefValue

end
-- ==== Proof.lean ====
/-
  The certificate: the word-level kernel program, its idealization and the idealized jnp reference all run to the
  end, fault nowhere and leave their arguments unchanged; the idealization rewrote nothing; and at the extended
  reals the kernel program and the reference compute the same three results from the same inputs —
      the layer output       y   = x · wᵀ,
      the new threshold      thr = t₀ + ((∑_b y(b, ·) / 8192)² − t₀) / 1000,
      the updated weights    w + c · max(y − thr, 0)ᵀ · x.
  The kernel accumulates both matrix products block by block along the contracted axis, starting each accumulation
  from zero; a sum over the contracted axis cut into consecutive blocks is the sum over the axis, which on the
  extended reals needs commutativity and associativity of + only, so the inputs' finiteness is never used.  The
  threshold is computed on both sides by the same host operations from equal layer outputs, and is carried as one
  function.  The frames come from the run of the whole program through its two kernel regions, which is stated at
  any float instance and read at the word level for the first frame and at the extended reals for the second.
-/
import proofs.«150280_j81003083202674_1_alg».proof.Defs
import proofs.«150280_j81003083202674_1_alg».proof.Proof.Gen.Kernel
import proofs.«150280_j81003083202674_1_alg».proof.Proof.Gen.KernelIdeal
import proofs.«150280_j81003083202674_1_alg».proof.Proof.Gen.ReferenceIdeal
import proofs.«150280_j81003083202674_1_alg».proof.Proof.Gen.Pre_finite_inputs
import proofs.«150280_j81003083202674_1_alg».proof.Proof.BitsRun
import proofs.«150280_j81003083202674_1_alg».proof.Proof.KVal
import proofs.«150280_j81003083202674_1_alg».proof.Proof.Ref
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2.2) (Cert.ReferenceIdeal.RefValue.ref_run m ρ)

theorem preserves : Cert.preserves_Kernel_KernelIdeal := trivial

/-- Both programs compute the new threshold by the same operations. -/
theorem thr_same (y : FVec Ideal Cert.KernelIdeal.S8192x4096 .f32) (t0 : FVec Ideal Cert.KernelIdeal.S4096 .f32) :
    Cert.KernelIdeal.Hand.kerThr y t0 = Cert.ReferenceIdeal.RefValue.refThr y t0 := rfl

theorem algebraic : Cert.algebraic_KernelIdeal_ReferenceIdeal := by
  intro m ρ m' ρ' _ hagree
  refine ⟨fun c => Cert.KernelIdeal.Hand.kOut m c, fun c => Cert.KernelIdeal.Hand.kThr m c, fun c => Cert.KernelIdeal.Hand.kNew m c,
    Cert.KernelIdeal.Hand.kernel_value m ρ, ?_⟩
  refine (θ_run Cert.ReferenceIdeal.defs _ _).mono (fun _ h c => ?_) (Cert.ReferenceIdeal.RefValue.ref_run m' ρ')
  obtain ⟨h1, h2, h3, h4⟩ := h c
  obtain ⟨a0, a1, a2⟩ := hagree c
  refine ⟨h1.trans ?_, h2.trans ?_, h3.trans ?_, h4⟩
  · rw [a0, a1]
  · rw [a0, a1, a2]; exact (thr_same _ _).symm
  · rw [a0, a1, a2, ← thr_same]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
